-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2304 : Shape := ⟨3, ![4, 2048, 2304]⟩
abbrev S_ : Shape := ⟨0, ![]⟩

class Facts : Prop where
  bcast_S_S4x2048x2304 : S_.BroadcastsInDim S4x2048x2304 (![] : Fin 0 → Fin S4x2048x2304.rank)
  reducesTo_S4x2048x2304_S_d0_1_2 : S4x2048x2304.ReducesTo [0, 1, 2] S_
  h_S_ : 0 < S_.numel

variable [Facts]

def fn {F : FTy → Type} [FloatOps F] (main_arg0 : FVec F S4x2048x2304 .f32) : IVec S_ 1 :=
  let main_v0 : FVec F S4x2048x2304 .f32 := Host.absf main_arg0
  let main_cst : FVec F S_ .f32 := constant S_ .f32 0x7F800000#32
  let main_v1 : FVec F S4x2048x2304 .f32 := broadcastInDim S4x2048x2304 ![] bcast_S_S4x2048x2304 main_cst
  let main_v2 : IVec S4x2048x2304 1 := cmpf .olt main_v0 main_v1
  let main_c : IVec S_ 1 := constantI S_ 1 1#1
  let main_v3 : IVec S_ 1 := (fun x v => Host.reduce IntOp.andi x v reducesTo_S4x2048x2304_S_d0_1_2 h_S_) main_v2 main_c
  main_v3
-- ==== Kernel.lean ====
abbrev S4x2048x2304 : Shape := ⟨3, ![4, 2048, 2304]⟩
abbrev S4x2048x768 : Shape := ⟨3, ![4, 2048, 768]⟩
abbrev S1x1024x128 : Shape := ⟨3, ![1, 1024, 128]⟩
abbrev S1x2048x128 : Shape := ⟨3, ![1, 2048, 128]⟩
abbrev S1024x128 : Shape := ⟨2, ![1024, 128]⟩
abbrev S2048x128 : Shape := ⟨2, ![2048, 128]⟩
abbrev S1024x64 : Shape := ⟨2, ![1024, 64]⟩
abbrev S2048x64 : Shape := ⟨2, ![2048, 64]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 2
  | .vmem => 8
  | .smem => 0
  | _ => 0

abbrev bufTy : (tb : Table) → Fin (tcTables nBuf tb) → BufTy
  | .hbm, ⟨0, _⟩ => ⟨S4x2048x2304, .f32⟩
  | .hbm, ⟨1, _⟩ => ⟨S4x2048x768, .f32⟩
  | .local _ .vmem, ⟨0, _⟩ => ⟨S1x1024x128, .f32⟩
  | .local _ .vmem, ⟨1, _⟩ => ⟨S1x1024x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x1024x128, .f32⟩
  | .local _ .vmem, ⟨7, _⟩ => ⟨S1x1024x128, .f32⟩
  | _, _ => ⟨S4x2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![24, 2], ![false, false]⟩

def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c6_i32_10 : BitVec 32 := 6#32
  let v27 : BitVec 32 := Scalar.addi c6_i32_10 v26
  let c0_i32_11 : BitVec 32 := 0#32
  let c0_i32_12 : BitVec 32 := 0#32
  ![v16.toNat, c0_i32_11.toNat, v27.toNat]

def cc0_transform_2 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c12_i32 : BitVec 32 := 12#32
  let v27 : BitVec 32 := Scalar.addi c12_i32 v26
  let c0_i32_10 : BitVec 32 := 0#32
  let c0_i32_11 : BitVec 32 := 0#32
  ![v16.toNat, c0_i32_10.toNat, v27.toNat]

def cc0_transform_3 (i : grid0.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.divsi arg0 c6_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg0 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  bitsLt_bf16_f32 : FTy.bits .bf16 < FTy.bits .f32
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  slices_S1024x128_o0_0_S1024x64 : S1024x128.Slices ![0, 0] S1024x64
  slices_S2048x128_o0_0_S2048x64 : S2048x128.Slices ![0, 0] S2048x64
  reduces_S1024x2048_S1024 : S1024x2048.Reduces [1] S1024
  shapeCasts_S1024_S1024x1 : S1024.ShapeCasts S1024x1
  broadcasts_S1024x1_S1024x2048 : S1024x1.Broadcasts S1024x2048
  slices_S1024x128_o0_64_S1024x64 : S1024x128.Slices ![0, 64] S1024x64
  slices_S2048x128_o0_64_S2048x64 : S2048x128.Slices ![0, 64] S2048x64
  concatenates_S1024x64_S1024x64_S1024x128_d1 : Shape.Concatenates [S1024x64, S1024x64] S1024x128 1
  shapeCasts_S1024x128_S1x1024x128 : S1024x128.ShapeCasts S1x1024x128
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S4x2048x2304.size a
  hwx0_0 : ∀ i : grid0.Coords, EltTy.bits .f32 = 32 ∨ (Rect.block (s := S4x2048x2304) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S4x2048x2304.size a
  hwx0_1 : ∀ i : grid0.Coords, EltTy.bits .f32 = 32 ∨ (Rect.block (s := S4x2048x2304) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S4x2048x2304.size a
  hwx0_2 : ∀ i : grid0.Coords, EltTy.bits .f32 = 32 ∨ (Rect.block (s := S4x2048x2304) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S4x2048x768.size a
  hwx0_3 : ∀ i : grid0.Coords, EltTy.bits .f32 = 32 ∨ (Rect.block (s := S4x2048x768) S1x1024x128.size (cc0_transform_3 i) (hinb0_3 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x2304 : Shape := ⟨3, ![4, 2048, 2304]⟩
abbrev S4x2048x3x12x64 : Shape := ⟨5, ![4, 2048, 3, 12, 64]⟩
abbrev S3x4x12x2048x64 : Shape := ⟨5, ![3, 4, 12, 2048, 64]⟩
abbrev S1x4x12x2048x64 : Shape := ⟨5, ![1, 4, 12, 2048, 64]⟩
abbrev S4x12x2048x64 : Shape := ⟨4, ![4, 12, 2048, 64]⟩
abbrev S_ : Shape := ⟨0, ![]⟩
abbrev S4x12x2048x2048 : Shape := ⟨4, ![4, 12, 2048, 2048]⟩
abbrev S4x12x2048 : Shape := ⟨3, ![4, 12, 2048]⟩
abbrev S4x12x2048x1 : Shape := ⟨4, ![4, 12, 2048, 1]⟩
abbrev S4x2048x12x64 : Shape := ⟨4, ![4, 2048, 12, 64]⟩
abbrev S4x2048x768 : Shape := ⟨3, ![4, 2048, 768]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x2304, .f32⟩
  | .hbm, ⟨1, _⟩ => ⟨S4x2048x3x12x64, .f32⟩
  | .hbm, ⟨2, _⟩ => ⟨S3x4x12x2048x64, .f32⟩
  | .hbm, ⟨3, _⟩ => ⟨S1x4x12x2048x64, .f32⟩
  | .hbm, ⟨4, _⟩ => ⟨S4x12x2048x64, .f32⟩
  | .hbm, ⟨5, _⟩ => ⟨S1x4x12x2048x64, .f32⟩
  | .hbm, ⟨6, _⟩ => ⟨S4x12x2048x64, .f32⟩
  | .hbm, ⟨7, _⟩ => ⟨S1x4x12x2048x64, .f32⟩
  | .hbm, ⟨8, _⟩ => ⟨S4x12x2048x64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x12x2048x2048, .f32⟩
  | .hbm, ⟨14, _⟩ => ⟨S4x12x2048x2048, .f32⟩
  | .hbm, ⟨15, _⟩ => ⟨S4x12x2048x2048, .f32⟩
  | .hbm, ⟨16, _⟩ => ⟨S_, .f32⟩
  | .hbm, ⟨17, _⟩ => ⟨S4x12x2048, .f32⟩
  | .hbm, ⟨18, _⟩ => ⟨S_, .f32⟩
  | .hbm, ⟨19, _⟩ => ⟨S4x12x2048, .f32⟩
  | .hbm, ⟨20, _⟩ => ⟨S4x12x2048, .f32⟩
  | .hbm, ⟨21, _⟩ => ⟨S4x12x2048x1, .f32⟩
  | .hbm, ⟨22, _⟩ => ⟨S4x12x2048x2048, .f32⟩
  | .hbm, ⟨23, _⟩ => ⟨S4x12x2048x2048, .f32⟩
  | .hbm, ⟨24, _⟩ => ⟨S4x12x2048x2048, .f32⟩
  | .hbm, ⟨25, _⟩ => ⟨S_, .f32⟩
  | .hbm, ⟨26, _⟩ => ⟨S4x12x2048, .f32⟩
  | .hbm, ⟨27, _⟩ => ⟨S4x12x2048x1, .f32⟩
  | .hbm, ⟨28, _⟩ => ⟨S4x12x2048x2048, .f32⟩
  | .hbm, ⟨29, _⟩ => ⟨S4x12x2048x2048, .f32⟩
  | .hbm, ⟨30, _⟩ => ⟨S4x12x2048x64, .f32⟩
  | .hbm, ⟨31, _⟩ => ⟨S4x2048x12x64, .f32⟩
  | .hbm, ⟨32, _⟩ => ⟨S4x2048x768, .f32⟩
  | _, _ => ⟨S4x2048x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_1 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_3 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]

class Facts₀ : Prop where
  shapeCasts_S4x2048x2304_S4x2048x3x12x64 : S4x2048x2304.ShapeCasts S4x2048x3x12x64
  transposes_S4x2048x3x12x64_S3x4x12x2048x64_2_0_3_1_4 : S4x2048x3x12x64.Transposes [2, 0, 3, 1, 4] S3x4x12x2048x64
  slices_S3x4x12x2048x64_S1x4x12x2048x64_0_0_0_0_0 : S3x4x12x2048x64.Slices ![0, 0, 0, 0, 0] S1x4x12x2048x64
  shapeCasts_S1x4x12x2048x64_S4x12x2048x64 : S1x4x12x2048x64.ShapeCasts S4x12x2048x64
  slices_S3x4x12x2048x64_S1x4x12x2048x64_1_0_0_0_0 : S3x4x12x2048x64.Slices ![1, 0, 0, 0, 0] S1x4x12x2048x64
  slices_S3x4x12x2048x64_S1x4x12x2048x64_2_0_0_0_0 : S3x4x12x2048x64.Slices ![2, 0, 0, 0, 0] S1x4x12x2048x64
  bcast_S_S4x12x2048x2048 : S_.BroadcastsInDim S4x12x2048x2048 (![] : Fin 0 → Fin S4x12x2048x2048.rank)
  reducesTo_S4x12x2048x2048_S4x12x2048_d3 : S4x12x2048x2048.ReducesTo [3] S4x12x2048
  h_S_ : 0 < S_.numel
  bcast_S_S4x12x2048 : S_.BroadcastsInDim S4x12x2048 (![] : Fin 0 → Fin S4x12x2048.rank)
  bcast_S4x12x2048_S4x12x2048x1_0_1_2 : S4x12x2048.BroadcastsInDim S4x12x2048x1 (![0, 1, 2] : Fin 3 → Fin S4x12x2048x1.rank)
  bcast_S4x12x2048x1_S4x12x2048x2048_0_1_2_3 : S4x12x2048x1.BroadcastsInDim S4x12x2048x2048 (![0, 1, 2, 3] : Fin 4 → Fin S4x12x2048x2048.rank)
  transposes_S4x12x2048x64_S4x2048x12x64_0_2_1_3 : S4x12x2048x64.Transposes [0, 2, 1, 3] S4x2048x12x64
  shapeCasts_S4x2048x12x64_S4x2048x768 : S4x2048x12x64.ShapeCasts S4x2048x768
  dot_S4x12x2048x64_S4x12x2048x64_S4x12x2048x2048_3_3_2_2_01_01_wf : DotDims.WF S4x12x2048x64 S4x12x2048x64 S4x12x2048x2048 [3] [3] [2] [2] [0, 1] [0, 1]
  dot_S4x12x2048x2048_S4x12x2048x64_S4x12x2048x64_3_2_2_3_01_01_wf : DotDims.WF S4x12x2048x2048 S4x12x2048x64 S4x12x2048x64 [3] [2] [2] [3] [0, 1] [0, 1]

variable [Facts₀]

def dot_S4x12x2048x64_S4x12x2048x64_S4x12x2048x2048_3_3_2_2_01_01 : DotDims S4x12x2048x64 S4x12x2048x64 S4x12x2048x2048 where
  lhsContracting := [3]
  rhsContracting := [3]
  lhsNonContracting := [2]
  rhsNonContracting := [2]
  lhsBatch := [0, 1]
  rhsBatch := [0, 1]
  wf := dot_S4x12x2048x64_S4x12x2048x64_S4x12x2048x2048_3_3_2_2_01_01_wf
def dot_S4x12x2048x2048_S4x12x2048x64_S4x12x2048x64_3_2_2_3_01_01 : DotDims S4x12x2048x2048 S4x12x2048x64 S4x12x2048x64 where
  lhsContracting := [3]
  rhsContracting := [2]
  lhsNonContracting := [2]
  rhsNonContracting := [3]
  lhsBatch := [0, 1]
  rhsBatch := [0, 1]
  wf := dot_S4x12x2048x2048_S4x12x2048x64_S4x12x2048x64_3_2_2_3_01_01_wf

class Facts : Prop extends Facts₀ where

variable [Facts]
-- ==== Proof.RegionB.lean ====
/-
  The attention kernel's region, point by point.

  The region has 48 grid points (24 batch-and-head-pair values × 2 query tiles). At each point the pipeline stages three
  blocks of the ONE argument array — a [1, 1024, 128] block of query columns, a [1, 2048, 128] block of key columns and a
  [1, 2048, 128] block of value columns — and one [1, 1024, 128] block of the result array. The body loads the three
  input blocks whole, computes, and stores the result block whole, so what it leaves in the result's staging buffer is a
  function of the three input blocks alone (`blockOut`), and the input buffers are left as found.

  Because the three input windows read one array, no single window can hold that array at the full share: the share is
  split three ways (a half, a quarter, a quarter), which is all a window that only reads needs.
-/
import proofs.«418524_j62156766708341_3_alg».proof.Proof.Gen.Kernel.Launch
import proofs.«418524_j62156766708341_3_alg».proof.Proof.Gen.Kernel.Skeleton
import proofs.«418524_j62156766708341_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- The buffers as the region finds them: as launched (the program is the region alone). -/
abbrev V (c : Dev nD) (b : Ref sig .tc) : Buf (Elt F) ((c : Thread nD τ).loc b) := m ((c : Thread nD τ).loc b)

/-- The program up to its region is nothing. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, whether the point fetched it or not: where it is
    not fetched the block index has not moved since the last fetch, and the body leaves input buffers as found. -/
theorem before_q_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_k_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_v_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the result's buffer -/

/-- The whole [1, 1024, 128] buffer as one rectangle, and the whole [1, 2048, 128] one. -/
abbrev rq : Rect S1x1024x128 := Rect.unit (s := S1x1024x128) ![0, 0, 0] S1x1024x128.size inb_S1x1024x128_S1x1024x128_0_0_0
abbrev rk : Rect S1x2048x128 := Rect.unit (s := S1x2048x128) ![0, 0, 0] S1x2048x128.size inb_S1x2048x128_S1x2048x128_0_0_0

/-- The body's one store, as a function of the three input buffers' contents: both heads' attention, side by side. -/
def blockOut (x0 : Vec F S1x1024x128 .f32) (x1 x2 : Vec F S1x2048x128 .f32) : Vec F S1x1024x128 .f32 :=
  View.canon [⟨rq, k0_pay1 (k0_pay5 (View.ld x0 rq) (View.ld x1 rk) (View.ld x2 rk)) (k0_pay6 (View.ld x2 rk))
    (k0_pay7 (View.ld x0 rq) (View.ld x1 rk)) (k0_pay8 (View.ld x0 rq) (View.ld x1 rk))⟩]

/-- The one store covers the buffer. -/
theorem cover_out (p0 : Vec F S1x1024x128 .f32) (y : S1x1024x128.Idx) :
    ∃ pc ∈ ([⟨rq, p0⟩] : List (View.Piece (Elt F) S1x1024x128 .f32)), y ∈ pc.1.set :=
  View.cover_of_tiled [⟨rq, p0⟩] S1x1024x128.size (by rfl) y

/-! ## The body's triple -/

set_option maxHeartbeats 1000000 in
/-- On whole staging buffers — the inputs' at contents `x0`, `x1`, `x2` held at ANY share, the result's at anything —
    the body runs to the end, leaving the inputs' as they were and the result's at `blockOut x0 x1 x2`. -/
theorem sound_kernel (c : Dev nD) (E : Set ℕ) (i : grid0.Coords)
    (arg2 : Memref sig .tc .vmem S1x1024x128 .f32) (harg2 : arg2.IsWhole) (arg3 : Memref sig .tc .vmem S1x2048x128 .f32) (harg3 : arg3.IsWhole)
    (arg4 : Memref sig .tc .vmem S1x2048x128 .f32) (harg4 : arg4.IsWhole) (arg5 : Memref sig .tc .vmem S1x1024x128 .f32) (harg5 : arg5.IsWhole)
    (x0 : Vec F S1x1024x128 .f32) (x1 x2 : Vec F S1x2048x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (blockOut x0 x1 x2)) -∗ K ⟨⟩))
      ⊢ wp frame (wpE (defs₀ (F := F)) Variants.none c none) E (cc0__attn_kernel i arg2 harg2 arg3 harg3 arg4 harg4 arg5 harg5) K := by
  simp only [cc0__attn_kernel_eq_skeleton]; unfold cc0__attn_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

end Cert.Kernel.Region

end
-- ==== Proof.RunB.lean ====
/-
  The attention kernel's run: every grid point's body obligation, the launch, and what the arrays hold at the end.

  The proof data say, for each window and point, what the body leaves in the window's staging buffer: each input's its
  block (read, never written), the result's `blockOut` of the three input blocks. The three input windows share the
  argument array, so the array's full share is dealt among them: the query window a half, the key and value windows a
  quarter each; the result window holds its own array whole. With that the launch runs the 48 points and ends with the
  argument array unchanged and the result array assembled from the blocks written back.
-/
import proofs.«418524_j62156766708341_3_alg».proof.Proof.RegionB

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- After the body at point `t`: each input's buffer at its block, the result's at `blockOut` of the three blocks. The
    argument array's share is a half for the queries' window and a quarter each for the keys' and the values'. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockOut (iblk m c 0 t) (iblk m c 1 t) (iblk m c 2 t)
  Φ _ := Pipeline.ΦA spec0 c
  q w := match w with
    | ⟨0, _⟩ => fullShare.left
    | ⟨1, _⟩ => fullShare.right.left
    | ⟨2, _⟩ => fullShare.right.right
    | ⟨3, _⟩ => fullShare
  owed _ := 0

theorem A_eq (c : Dev nD) (w : Fin cfg0.W) : (dats m 0 c).A w = V m c (Pipeline.arrRef spec0 w) := by
  dsimp only [dats]

theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_v (c : Dev nD) (t : Fin cfg0.N) : (dats m 0 c).after 2 t = iblk m c 2 t := by dsimp only [dats]
theorem after_o (c : Dev nD) (t : Fin cfg0.N) :
    (dats m 0 c).after 3 t = blockOut (iblk m c 0 t) (iblk m c 1 t) (iblk m c 2 t) := by dsimp only [dats]

theorem before_q (c : Dev nD) (t : Fin cfg0.N) (d) : (dats m 0 c).before 0 t d = iblk m c 0 t :=
  before_q_of m (dats m 0 c) (A_eq m c 0) (after_q m c) t d
theorem before_k (c : Dev nD) (t : Fin cfg0.N) (d) : (dats m 0 c).before 1 t d = iblk m c 1 t :=
  before_k_of m (dats m 0 c) (A_eq m c 1) (after_k m c) t d
theorem before_v (c : Dev nD) (t : Fin cfg0.N) (d) : (dats m 0 c).before 2 t d = iblk m c 2 t :=
  before_v_of m (dats m 0 c) (A_eq m c 2) (after_v m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and what
    the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_k, before_v]
  rw [show (dats m 0 c).Φ t.succ = (dats m 0 c).Φ t.castSucc from rfl,
    show (dats m 0 c).owesAt () t.succ = (dats m 0 c).owesAt () t.castSucc from rfl,
    after_q, after_k, after_v, after_o]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

end Cert.Kernel.Region

end
-- ==== Proof.LaunchB.lean ====
/-
  The attention kernel's launch: the shared argument array dealt among its three windows, the run of the 48 points,
  and the frame — the argument array ends as launched — with the result array named by the blocks written back.
-/
import proofs.«418524_j62156766708341_3_alg».proof.Proof.RunB

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument array, held whole at the region's entry, dealt among the three windows that read it — a half, a quarter,
    a quarter — and the result array whole to its one window: the windows' arrays as the proof data hold them. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  have hL : bigSep (Finset.univ.image (Pipeline.arrRef spec0)) (fun b : Ref sig .tc => (((c.tc : Thread nD τ).loc b) ↦{fullShare} V m c b : sProp 𝕄))
      = iprop((((c.tc : Thread nD τ).loc main_arg0) ↦{fullShare} V m c main_arg0) ∗ (((c.tc : Thread nD τ).loc main_v0) ↦{fullShare} V m c main_v0)) :=
    bigSep_eq_bigSepL_of_eq [main_arg0, main_v0] (by decide) (by decide) _
  rw [hL, bigSep_W0]
  have e0 : (dats m 0 c).share 0 = fullShare.left := rfl
  have e1 : (dats m 0 c).share 1 = fullShare.right.left := rfl
  have e2 : (dats m 0 c).share 2 = fullShare.right.right := rfl
  have e3 : (dats m 0 c).share 3 = fullShare := rfl
  rw [e0, e1, e2, e3, (arr_whole0 0).set_eq_univ, (arr_whole0 3).set_eq_univ]
  iintro ⟨HA, HO⟩
  ihave HA' := (pointsTo_share (PosShare.mem_left_op_right fullShare)).1 $$ HA
  icases HA' with ⟨HA0, HAr⟩
  ihave HAr' := (pointsTo_share (PosShare.mem_left_op_right fullShare.right)).1 $$ HAr
  icases HAr' with ⟨HA1, HA2⟩
  isplitl [HA0]; · iexact HA0
  isplitl [HA1]; · iexact HA1
  isplitl [HA2]; · iexact HA2
  iexact HO

/-! ## The run -/

set_option backward.isDefEq.respectTransparency.types false in
/-- From any memory with zero counters every weakly fair execution of the program ends, with every windowed array at
    what the write-backs of the proof data's blocks make of it and every other unscoped buffer as found. The launch is
    the library's for a region with no semaphore of its own; the one thing said here that the library's ready-made
    frame run cannot say is how the shared argument array is dealt among its three windows (`hsplit`). -/
theorem run_main : θ_run defs (onTc (τ := τ) (main (F := F))) (s₀ m ρ) (Pipeline.FramePost cfgs (dats m) 0 (V m)) := by
  classical
  exact Pipeline.θ_run_region_pf (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun c => (body_obligation m c).loose) block_pos0 arr_whole0 stage_whole0 (fun _ _ => rfl)
    (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, Ht, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (QY := fun c s => ∀ b ∈ Pipeline.restRefsP sig Pipeline.Prefetch.none spec0, s.mem ((c.tc : Thread nD τ).loc b) = V m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (V m c) s')
      isplitl [HU] <;> iassumption)
    (hQ := fun s h c => ⟨fun w => (h c).1 w,
      Pipeline.rest_of_restP Pipeline.Prefetch.none spec0 (fun k => k.elim0) c (V m c) s (fun k => k.elim0) (h c).2.1 (h c).2.2⟩)

/-! ## The frame, and the arrays after the run -/

/-- The argument array ends as launched: its windows only read it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans (A_eq m c 0))) (run_main m ρ)

/-- The run with the result array named — what the write-backs of all 48 points make of it — and the argument
    array unchanged. -/
theorem run_blocks : θ_run defs (onTc (τ := τ) (main (F := F))) ⟨m, fun _ => 0, ρ⟩ fun r => ∀ c : Dev nD,
      r.2.mem ((c.tc : Thread nD τ).loc main_v0) = (dats m 0 c).arrAt 3 cfg0.N
      ∧ r.2.mem ((c.tc : Thread nD τ).loc main_arg0) = m ((c.tc : Thread nD τ).loc main_arg0) :=
  (θ_run defs _ _).mono (fun _ h c => ⟨(h c).1 3, ((h c).1 0).trans (((dats m 0 c).arrAt_in 0 rfl _).trans (A_eq m c 0))⟩) (run_main m ρ)

end Cert.Kernel.Region

end
-- ==== Proof.RegionI.lean ====
/-
  The attention kernel's region, point by point.

  The region has 48 grid points (24 batch-and-head-pair values × 2 query tiles). At each point the pipeline stages three
  blocks of the ONE argument array — a [1, 1024, 128] block of query columns, a [1, 2048, 128] block of key columns and a
  [1, 2048, 128] block of value columns — and one [1, 1024, 128] block of the result array. The body loads the three
  input blocks whole, computes, and stores the result block whole, so what it leaves in the result's staging buffer is a
  function of the three input blocks alone (`blockOut`), and the input buffers are left as found.

  Because the three input windows read one array, no single window can hold that array at the full share: the share is
  split three ways (a half, a quarter, a quarter), which is all a window that only reads needs.
-/
import proofs.«418524_j62156766708341_3_alg».proof.Proof.Gen.KernelIdeal.Launch
import proofs.«418524_j62156766708341_3_alg».proof.Proof.Gen.KernelIdeal.Skeleton
import proofs.«418524_j62156766708341_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region's entry -/

/-- The buffers as the region finds them: as launched (the program is the region alone). -/
abbrev V (c : Dev nD) (b : Ref sig .tc) : Buf (Elt F) ((c : Thread nD τ).loc b) := m ((c : Thread nD τ).loc b)

/-- The program up to its region is nothing. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, whether the point fetched it or not: where it is
    not fetched the block index has not moved since the last fetch, and the body leaves input buffers as found. -/
theorem before_q_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_k_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_v_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the result's buffer -/

/-- The whole [1, 1024, 128] buffer as one rectangle, and the whole [1, 2048, 128] one. -/
abbrev rq : Rect S1x1024x128 := Rect.unit (s := S1x1024x128) ![0, 0, 0] S1x1024x128.size inb_S1x1024x128_S1x1024x128_0_0_0
abbrev rk : Rect S1x2048x128 := Rect.unit (s := S1x2048x128) ![0, 0, 0] S1x2048x128.size inb_S1x2048x128_S1x2048x128_0_0_0

/-- The body's one store, as a function of the three input buffers' contents: both heads' attention, side by side. -/
def blockOut (x0 : Vec F S1x1024x128 .f32) (x1 x2 : Vec F S1x2048x128 .f32) : Vec F S1x1024x128 .f32 :=
  View.canon [⟨rq, k0_pay1 (k0_pay5 (View.ld x0 rq) (View.ld x1 rk) (View.ld x2 rk)) (k0_pay6 (View.ld x2 rk))
    (k0_pay7 (View.ld x0 rq) (View.ld x1 rk)) (k0_pay8 (View.ld x0 rq) (View.ld x1 rk))⟩]

/-- The one store covers the buffer. -/
theorem cover_out (p0 : Vec F S1x1024x128 .f32) (y : S1x1024x128.Idx) :
    ∃ pc ∈ ([⟨rq, p0⟩] : List (View.Piece (Elt F) S1x1024x128 .f32)), y ∈ pc.1.set :=
  View.cover_of_tiled [⟨rq, p0⟩] S1x1024x128.size (by rfl) y

/-! ## The body's triple -/

set_option maxHeartbeats 1000000 in
/-- On whole staging buffers — the inputs' at contents `x0`, `x1`, `x2` held at ANY share, the result's at anything —
    the body runs to the end, leaving the inputs' as they were and the result's at `blockOut x0 x1 x2`. -/
theorem sound_kernel (c : Dev nD) (E : Set ℕ) (i : grid0.Coords)
    (arg2 : Memref sig .tc .vmem S1x1024x128 .f32) (harg2 : arg2.IsWhole) (arg3 : Memref sig .tc .vmem S1x2048x128 .f32) (harg3 : arg3.IsWhole)
    (arg4 : Memref sig .tc .vmem S1x2048x128 .f32) (harg4 : arg4.IsWhole) (arg5 : Memref sig .tc .vmem S1x1024x128 .f32) (harg5 : arg5.IsWhole)
    (x0 : Vec F S1x1024x128 .f32) (x1 x2 : Vec F S1x2048x128 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (blockOut x0 x1 x2)) -∗ K ⟨⟩))
      ⊢ wp frame (wpE (defs₀ (F := F)) Variants.none c none) E (cc0__attn_kernel i arg2 harg2 arg3 harg3 arg4 harg4 arg5 harg5) K := by
  simp only [cc0__attn_kernel_eq_skeleton]; unfold cc0__attn_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

end Cert.KernelIdeal.Region

end
-- ==== Proof.RunI.lean ====
/-
  The attention kernel's run: every grid point's body obligation, the launch, and what the arrays hold at the end.

  The proof data say, for each window and point, what the body leaves in the window's staging buffer: each input's its
  block (read, never written), the result's `blockOut` of the three input blocks. The three input windows share the
  argument array, so the array's full share is dealt among them: the query window a half, the key and value windows a
  quarter each; the result window holds its own array whole. With that the launch runs the 48 points and ends with the
  argument array unchanged and the result array assembled from the blocks written back.
-/
import proofs.«418524_j62156766708341_3_alg».proof.Proof.RegionI

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- After the body at point `t`: each input's buffer at its block, the result's at `blockOut` of the three blocks. The
    argument array's share is a half for the queries' window and a quarter each for the keys' and the values'. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => blockOut (iblk m c 0 t) (iblk m c 1 t) (iblk m c 2 t)
  Φ _ := Pipeline.ΦA spec0 c
  q w := match w with
    | ⟨0, _⟩ => fullShare.left
    | ⟨1, _⟩ => fullShare.right.left
    | ⟨2, _⟩ => fullShare.right.right
    | ⟨3, _⟩ => fullShare
  owed _ := 0

theorem A_eq (c : Dev nD) (w : Fin cfg0.W) : (dats m 0 c).A w = V m c (Pipeline.arrRef spec0 w) := by
  dsimp only [dats]

theorem after_q (c : Dev nD) (t : Fin cfg0.N) : (dats m 0 c).after 0 t = iblk m c 0 t := by dsimp only [dats]
theorem after_k (c : Dev nD) (t : Fin cfg0.N) : (dats m 0 c).after 1 t = iblk m c 1 t := by dsimp only [dats]
theorem after_v (c : Dev nD) (t : Fin cfg0.N) : (dats m 0 c).after 2 t = iblk m c 2 t := by dsimp only [dats]
theorem after_o (c : Dev nD) (t : Fin cfg0.N) :
    (dats m 0 c).after 3 t = blockOut (iblk m c 0 t) (iblk m c 1 t) (iblk m c 2 t) := by dsimp only [dats]

theorem before_q (c : Dev nD) (t : Fin cfg0.N) (d) : (dats m 0 c).before 0 t d = iblk m c 0 t :=
  before_q_of m (dats m 0 c) (A_eq m c 0) (after_q m c) t d
theorem before_k (c : Dev nD) (t : Fin cfg0.N) (d) : (dats m 0 c).before 1 t d = iblk m c 1 t :=
  before_k_of m (dats m 0 c) (A_eq m c 1) (after_k m c) t d
theorem before_v (c : Dev nD) (t : Fin cfg0.N) (d) : (dats m 0 c).before 2 t d = iblk m c 2 t :=
  before_v_of m (dats m 0 c) (A_eq m c 2) (after_v m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' buffers hold their blocks, so the body's triple applies; the invariant and what
    the core owes pass through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_q, before_k, before_v]
  rw [show (dats m 0 c).Φ t.succ = (dats m 0 c).Φ t.castSucc from rfl,
    show (dats m 0 c).owesAt () t.succ = (dats m 0 c).owesAt () t.castSucc from rfl,
    after_q, after_k, after_v, after_o]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

end Cert.KernelIdeal.Region

end
-- ==== Proof.LaunchI.lean ====
/-
  The attention kernel's launch: the shared argument array dealt among its three windows, the run of the 48 points,
  and the frame — the argument array ends as launched — with the result array named by the blocks written back.
-/
import proofs.«418524_j62156766708341_3_alg».proof.Proof.RunI

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument array, held whole at the region's entry, dealt among the three windows that read it — a half, a quarter,
    a quarter — and the result array whole to its one window: the windows' arrays as the proof data hold them. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  have hL : bigSep (Finset.univ.image (Pipeline.arrRef spec0)) (fun b : Ref sig .tc => (((c.tc : Thread nD τ).loc b) ↦{fullShare} V m c b : sProp 𝕄))
      = iprop((((c.tc : Thread nD τ).loc main_arg0) ↦{fullShare} V m c main_arg0) ∗ (((c.tc : Thread nD τ).loc main_v0) ↦{fullShare} V m c main_v0)) :=
    bigSep_eq_bigSepL_of_eq [main_arg0, main_v0] (by decide) (by decide) _
  rw [hL, bigSep_W0]
  have e0 : (dats m 0 c).share 0 = fullShare.left := rfl
  have e1 : (dats m 0 c).share 1 = fullShare.right.left := rfl
  have e2 : (dats m 0 c).share 2 = fullShare.right.right := rfl
  have e3 : (dats m 0 c).share 3 = fullShare := rfl
  rw [e0, e1, e2, e3, (arr_whole0 0).set_eq_univ, (arr_whole0 3).set_eq_univ]
  iintro ⟨HA, HO⟩
  ihave HA' := (pointsTo_share (PosShare.mem_left_op_right fullShare)).1 $$ HA
  icases HA' with ⟨HA0, HAr⟩
  ihave HAr' := (pointsTo_share (PosShare.mem_left_op_right fullShare.right)).1 $$ HAr
  icases HAr' with ⟨HA1, HA2⟩
  isplitl [HA0]; · iexact HA0
  isplitl [HA1]; · iexact HA1
  isplitl [HA2]; · iexact HA2
  iexact HO

/-! ## The run -/

set_option backward.isDefEq.respectTransparency.types false in
/-- From any memory with zero counters every weakly fair execution of the program ends, with every windowed array at
    what the write-backs of the proof data's blocks make of it and every other unscoped buffer as found. The launch is
    the library's for a region with no semaphore of its own; the one thing said here that the library's ready-made
    frame run cannot say is how the shared argument array is dealt among its three windows (`hsplit`). -/
theorem run_main : θ_run defs (onTc (τ := τ) (main (F := F))) (s₀ m ρ) (Pipeline.FramePost cfgs (dats m) 0 (V m)) := by
  classical
  exact Pipeline.θ_run_region_pf (fun q => (cfgs q).toPCfg (Val := Elt F)) (fun q => (cfgs q).toPCfg_adm) (dats m) () cellOf_inj (0 : Fin 1)
    winFacts₀0 (Pipeline.OwnSemFacts.none spec0) (Pipeline.PreFacts.none _) emb₁ defs₀ Variants.none m ρ main
    (fun c => (body_obligation m c).loose) block_pos0 arr_whole0 stage_whole0 (fun _ _ => rfl)
    (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (hX := fun c => by
      iintro ⟨HU, -, -, -, Hp, -⟩; imodintro
      isplitl [Hp]; · iexists _; iexact Hp
      iexact HU)
    (hin := fun c => by
      show _ ⊢ Pipeline.ΦA spec0 c
      unfold Pipeline.ΦA; iintro ⟨Hp, Ht, Hr⟩
      isplitl [Hr] <;> iassumption)
    (hout := fun c => by
      show Pipeline.ΦA spec0 c ⊢ _
      rw [Pipeline.ownSems0_none]; unfold Pipeline.ΦA
      iintro ⟨Hr, Hp⟩
      isplitl [Hp]; · iexact Hp
      isplitr; · iempintro
      iexact Hr)
    (QY := fun c s => ∀ b ∈ Pipeline.restRefsP sig Pipeline.Prefetch.none spec0, s.mem ((c.tc : Thread nD τ).loc b) = V m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (V m c) s')
      isplitl [HU] <;> iassumption)
    (hQ := fun s h c => ⟨fun w => (h c).1 w,
      Pipeline.rest_of_restP Pipeline.Prefetch.none spec0 (fun k => k.elim0) c (V m c) s (fun k => k.elim0) (h c).2.1 (h c).2.2⟩)

/-! ## The frame, and the arrays after the run -/

/-- The argument array ends as launched: its windows only read it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans (A_eq m c 0))) (run_main m ρ)

/-- The run with the result array named — what the write-backs of all 48 points make of it — and the argument
    array unchanged. -/
theorem run_blocks : θ_run defs (onTc (τ := τ) (main (F := F))) ⟨m, fun _ => 0, ρ⟩ fun r => ∀ c : Dev nD,
      r.2.mem ((c.tc : Thread nD τ).loc main_v0) = (dats m 0 c).arrAt 3 cfg0.N
      ∧ r.2.mem ((c.tc : Thread nD τ).loc main_arg0) = m ((c.tc : Thread nD τ).loc main_arg0) :=
  (θ_run defs _ _).mono (fun _ h c => ⟨(h c).1 3, ((h c).1 0).trans (((dats m 0 c).arrAt_in 0 rfl _).trans (A_eq m c 0))⟩) (run_main m ρ)

end Cert.KernelIdeal.Region

end
-- ==== Proof.Spec.lean ====
/-
  Multi-head self-attention over a packed [4, 2048, 2304] array, as ONE function of the argument array.

  The array's last axis holds three slabs of 768 columns — queries, keys, values — each slab twelve heads of 64
  lanes. For batch `b`, row `n`, head `h` and lane `d`, the result at column `h * 64 + d` is

      ∑ j, softmax_j ((∑ d', q[n, d'] * k[j, d']) * (1/8)) * v[j, d]

  over the extended reals, the softmax taken with the row maximum subtracted before the exponential:
  the weights are `exp (s j - max_j s)` and each is divided by their sum. The maximum is the fold of `max` from
  `-∞` (the bottom of the extended reals, the word `0xFF800000`), the scale the dyadic `1/8` (the word
  `0x3E000000`); neither word is ever evaluated here.
-/
import Idealize.ShloMosaic.PureOps.Ideal
import Idealize.ShloMosaic.Lib.ValueIdx

noncomputable section

namespace Cert.Attn

open Idealize.ShloMosaic Idealize.ShloMosaic.ValueIdx

/-- The scale `1/8 = 1/√64` as the f32 word both programs multiply the scores by. -/
def scale : EReal := Ideal.ofBits .f32 0x3E000000#32

/-- `-∞`, the value a row maximum is folded from. -/
def negInf : EReal := Ideal.ofBits .f32 0xFF800000#32

/-- The scaled score of one query row against key row `j`. -/
def score (q : Fin 64 → EReal) (k : Fin 2048 → Fin 64 → EReal) (j : Fin 2048) : EReal :=
  (∑ d : Fin 64, q d * k j d) * scale

/-- A row's maximum: the fold of `max` from `-∞`. -/
def rowMax (s : Fin 2048 → EReal) : EReal := (Finset.univ : Finset (Fin 2048)).fold max negInf s

/-- The unnormalised softmax weight of entry `j` of a row of scores. -/
def weight (s : Fin 2048 → EReal) (j : Fin 2048) : EReal := Ideal.exp (s j - rowMax s)

/-- The softmax of a row of scores at entry `j`. -/
def prob (s : Fin 2048 → EReal) (j : Fin 2048) : EReal := Ideal.div (weight s j) (∑ j' : Fin 2048, weight s j')

/-- One head's attention for one query row, at lane `d`: the softmax-weighted sum of the value rows. -/
def head (q : Fin 64 → EReal) (k v : Fin 2048 → Fin 64 → EReal) (d : Fin 64) : EReal :=
  ∑ j : Fin 2048, prob (score q k) j * v j d

/-- The column of the packed axis that holds lane `d` of head `h` in slab `part` (0 queries, 1 keys, 2 values). -/
def col (part : Fin 3) (h : Fin 12) (d : Fin 64) : Fin 2304 :=
  ⟨part.val * 768 + h.val * 64 + d.val, by have := part.isLt; have := h.isLt; have := d.isLt; omega⟩

/-- The lane of a 128-wide block — two heads side by side — that holds lane `d` of the block's head `hh`. -/
def lane (hh : Fin 2) (d : Fin 64) : Fin 128 := ⟨hh.val * 64 + d.val, by have := hh.isLt; have := d.isLt; omega⟩

/-- The result at batch `b`, row `n`, head `h`, lane `d`. -/
def attnAt (x : (⟨3, ![4, 2048, 2304]⟩ : Shape).Idx → EReal) (b : Fin 4) (n : Fin 2048) (h : Fin 12) (d : Fin 64) : EReal :=
  head (fun d' => x (ix3 b n (col 0 h d'))) (fun j d' => x (ix3 b j (col 1 h d'))) (fun j d' => x (ix3 b j (col 2 h d'))) d

/-- The head of an output column. -/
def headOf (c : Fin 768) : Fin 12 := ⟨c.val / 64, by have := c.isLt; omega⟩

/-- The lane of an output column. -/
def laneOf (c : Fin 768) : Fin 64 := ⟨c.val % 64, Nat.mod_lt _ (by norm_num)⟩

/-- The whole result array: column `c` of the output is lane `c % 64` of head `c / 64`. -/
def attn (x : (⟨3, ![4, 2048, 2304]⟩ : Shape).Idx → EReal) : (⟨3, ![4, 2048, 768]⟩ : Shape).Idx → EReal :=
  fun o => attnAt x (o 0) (o 1) (headOf (o 2)) (laneOf (o 2))

theorem attn_ix3 (x : (⟨3, ![4, 2048, 2304]⟩ : Shape).Idx → EReal) (b : Fin 4) (n : Fin 2048) (c : Fin 768) :
    attn x (ix3 b n c) = attnAt x b n (headOf c) (laneOf c) := rfl

end Cert.Attn

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.BodyValue.lean ====
/-
  The kernel body's value, entry by entry.

  The body loads one block of 1024 query rows and one block each of 2048 key rows and 2048 value rows, every block
  128 lanes wide: two heads of 64 lanes side by side. For each of the two heads it takes the head's 64 lanes of the three
  blocks, forms the scores `q · kᵀ` scaled by `1/8`, subtracts each row's maximum, exponentiates, divides by the row's
  sum and multiplies by the values; the two heads' results are put side by side again. This file reads that value at
  row `r` and lane `hh * 64 + d`: it is one head's attention of query row `r` over the 2048 key and value rows, on the
  lanes of head `hh`.

  The steps, in order: a block with its leading unit axis dropped and its format narrowed (the identity on the
  extended reals); a slice of 64 lanes; the product of a [1024, 64] by the transpose of a [2048, 64] matrix at an
  entry, as a sum over the 64 lanes; a row maximum and a row sum kept as a column and spread over the row again; the
  product of a [1024, 2048] by a [2048, 64] matrix at an entry; two [1024, 64] results side by side.
-/
import proofs.«418524_j62156766708341_3_alg».proof.Proof.Gen.KernelIdeal.Skeleton
import proofs.«418524_j62156766708341_3_alg».proof.Proof.Spec
import proofs.«418524_j62156766708341_3_alg».proof.Proof.LibMatmulAt
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BodyValue

open Idealize.ShloMosaic Idealize.ShloMosaic.ValueIdx Cert.KernelIdeal Cert.KernelIdeal.Gen

/-! ## The loaded blocks as matrices -/

/-- The query block as a [1024, 128] matrix: entry (r, c) is the block at (0, r, c). -/
theorem pay2_apply (x0 : Vec Ideal S1x1024x128 .f32) (r : Fin 1024) (c : Fin 128) :
    Gen.k0_pay2 (F := Ideal) x0 (ix2 r c) = x0 (ix3 (0 : Fin 1) r c) := by
  unfold Gen.k0_pay2
  exact shapeCast_1ab_ab_apply x0 _ r c

/-- The key block as a [2048, 128] matrix. -/
theorem pay3_apply (x1 : Vec Ideal S1x2048x128 .f32) (j : Fin 2048) (c : Fin 128) :
    Gen.k0_pay3 (F := Ideal) x1 (ix2 j c) = x1 (ix3 (0 : Fin 1) j c) := by
  unfold Gen.k0_pay3
  exact shapeCast_1ab_ab_apply x1 _ j c

/-- The value block as a [2048, 128] matrix. -/
theorem pay4_apply (x2 : Vec Ideal S1x2048x128 .f32) (j : Fin 2048) (c : Fin 128) :
    Gen.k0_pay4 (F := Ideal) x2 (ix2 j c) = x2 (ix3 (0 : Fin 1) j c) := by
  unfold Gen.k0_pay4
  exact shapeCast_1ab_ab_apply x2 _ j c

/-! ## General readings: a column kept from a reduction, and a product with a transposed right factor -/

section General
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry (p, q) of `l · rᵀ` accumulated into zero is the sum over the contracted axis of `l[p, k] · r[q, k]`, for
    dimension numbers `D` whose one contracted axis has extent `K` (`hr`, `hs`) and which read the left operand at
    (row, k) (`hl0`, `hl1`) and the right at (column, k) (`hr0`, `hr1`). -/
theorem matmul_zero_at_transposed {A K B : Nat} {φ₁ φ₂ : FTy}
    (D : DotDims (⟨2, ![A, K]⟩ : Shape) (⟨2, ![B, K]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (i 1).val)
    (hr1 : ∀ (i : (⟨2, ![A, B]⟩ : Shape).Idx) (q : D.contr.Idx), (D.rhsIdx i q 1).val = (q ⟨0, by omega⟩).val)
    (prec : Option ContractPrecision) (l : FVec Ideal (⟨2, ![A, K]⟩ : Shape) φ₁) (r : FVec Ideal (⟨2, ![B, K]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 q k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end General

/-! ## Where the two products read their operands -/

theorem lhs_qk_0 (i : S1024x2048.Idx) (q : dot_S1024x64_S2048x64_S1024x2048_1_1_0_0_n_n.contr.Idx) :
    (dot_S1024x64_S2048x64_S1024x2048_1_1_0_0_n_n.lhsIdx i q 0).val = (i 0).val := by
  unfold DotDims.lhsIdx
  rw [dif_neg (show ¬(0 : Fin S1024x64.rank) ∈ dot_S1024x64_S2048x64_S1024x2048_1_1_0_0_n_n.lhsBatch by decide), dif_pos (show (0 : Fin S1024x64.rank) ∈ dot_S1024x64_S2048x64_S1024x2048_1_1_0_0_n_n.lhsNonContracting by decide)]
  rfl
theorem lhs_qk_1 (i : S1024x2048.Idx) (q : dot_S1024x64_S2048x64_S1024x2048_1_1_0_0_n_n.contr.Idx) :
    (dot_S1024x64_S2048x64_S1024x2048_1_1_0_0_n_n.lhsIdx i q 1).val = (q ⟨0, by decide⟩).val :=
  dot_S1024x64_S2048x64_S1024x2048_1_1_0_0_n_n.lhsIdx_val_of_single rfl i q
theorem rhs_qk_0 (i : S1024x2048.Idx) (q : dot_S1024x64_S2048x64_S1024x2048_1_1_0_0_n_n.contr.Idx) :
    (dot_S1024x64_S2048x64_S1024x2048_1_1_0_0_n_n.rhsIdx i q 0).val = (i 1).val := by
  unfold DotDims.rhsIdx
  rw [dif_neg (show ¬(0 : Fin S2048x64.rank) ∈ dot_S1024x64_S2048x64_S1024x2048_1_1_0_0_n_n.rhsBatch by decide), dif_pos (show (0 : Fin S2048x64.rank) ∈ dot_S1024x64_S2048x64_S1024x2048_1_1_0_0_n_n.rhsNonContracting by decide)]
  rfl
theorem rhs_qk_1 (i : S1024x2048.Idx) (q : dot_S1024x64_S2048x64_S1024x2048_1_1_0_0_n_n.contr.Idx) :
    (dot_S1024x64_S2048x64_S1024x2048_1_1_0_0_n_n.rhsIdx i q 1).val = (q ⟨0, by decide⟩).val :=
  dot_S1024x64_S2048x64_S1024x2048_1_1_0_0_n_n.rhsIdx_val_of_single rfl i q

theorem lhs_pv_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem lhs_pv_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem rhs_pv_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
theorem rhs_pv_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-! ## One head's computation, step by step, over any three [·, 64] operands -/

/-- The scaled scores: entry (r, j) of `q · kᵀ`, times the scale word, is the score of query row `r` against key row `j`. -/
theorem scores_apply (q : FVec Ideal S1024x64 .bf16) (k : FVec Ideal S2048x64 .bf16) (r : Fin 1024) (j : Fin 2048) :
    mulf (matmul dot_S1024x64_S2048x64_S1024x2048_1_1_0_0_n_n none q k (constant (F := Ideal) S1024x2048 .f32 0x00000000#32))
        (broadcast S1024x2048 (Scalar.ofBits (F := Ideal) .f32 0x3E000000#32)) (ix2 r j)
      = Cert.Attn.score (fun d' => q (ix2 r d')) (fun j' d' => k (ix2 j' d')) j := by
  refine (mulf_apply _ _ _).trans ?_
  refine congrArg (· * Cert.Attn.scale) ?_
  exact matmul_zero_at_transposed dot_S1024x64_S2048x64_S1024x2048_1_1_0_0_n_n rfl rfl lhs_qk_0 lhs_qk_1 rhs_qk_0 rhs_qk_1 none q k r j

/-- A row's maximum, kept as a column and spread over the row again, read at (r, j): the fold of `max` from `-∞` over row `r`. -/
theorem rowMax_spread_apply (s : FVec Ideal S1024x2048 .f32) (r : Fin 1024) (j : Fin 2048) :
    broadcastTo S1024x2048 (shapeCast S1024x1 (multiReduction (F := Ideal) .maximumf [1] S1024 s 0xFF800000#32 reduces_S1024x2048_S1024 (.inl rfl) rfl)
        shapeCasts_S1024_S1024x1) broadcasts_S1024x1_S1024x2048 (ix2 r j)
      = Cert.Attn.rowMax (fun j' => s (ix2 r j')) := by
  refine (broadcastTo_a1_ab_apply _ _ r j).trans ?_
  refine (shapeCast_a_a1_apply _ _ r (0 : Fin 1)).trans ?_
  refine (Ideal.multiReduction_maximumf_single s 0xFF800000#32 reduces_S1024x2048_S1024 (.inl rfl) rfl (ix1 r)).trans ?_
  have e : (fun j' : Fin 2048 => s (reduces_S1024x2048_S1024.lift (ix1 r) j')) = fun j' => s (ix2 r j') := funext fun j' =>
    congrArg s (funext fun a => Fin.ext (by match a with | ⟨0, _⟩ => rfl | ⟨1, _⟩ => rfl))
  exact congrArg (fun f : Fin 2048 → EReal => (Finset.univ : Finset (Fin 2048)).fold max (Ideal.ofBits .f32 0xFF800000#32) f) e

/-- A row's sum, kept as a column and spread over the row again, read at (r, j): the sum over row `r`. -/
theorem rowSum_spread_apply (w : FVec Ideal S1024x2048 .f32) (r : Fin 1024) (j : Fin 2048) :
    broadcastTo S1024x2048 (shapeCast S1024x1 (multiReduction (F := Ideal) .add [1] S1024 w 0x00000000#32 reduces_S1024x2048_S1024 (.inl rfl) rfl)
        shapeCasts_S1024_S1024x1) broadcasts_S1024x1_S1024x2048 (ix2 r j)
      = ∑ j' : Fin 2048, w (ix2 r j') := by
  refine (broadcastTo_a1_ab_apply _ _ r j).trans ?_
  refine (shapeCast_a_a1_apply _ _ r (0 : Fin 1)).trans ?_
  refine (Ideal.multiReduction_add_single w 0x00000000#32 reduces_S1024x2048_S1024 (.inl rfl) rfl (ix1 r)).trans ?_
  have e : (fun j' : Fin 2048 => w (reduces_S1024x2048_S1024.lift (ix1 r) j')) = fun j' => w (ix2 r j') := funext fun j' =>
    congrArg w (funext fun a => Fin.ext (by match a with | ⟨0, _⟩ => rfl | ⟨1, _⟩ => rfl))
  exact congrArg (fun f : Fin 2048 → EReal => ∑ j' : Fin 2048, f j') e

/-! ## One head, as the body computes it from its three [·, 64] operands -/

/-- The scaled scores of a query block against a key block. -/
def scoresOf (q : FVec Ideal S1024x64 .bf16) (k : FVec Ideal S2048x64 .bf16) : FVec Ideal S1024x2048 .f32 :=
  mulf (matmul dot_S1024x64_S2048x64_S1024x2048_1_1_0_0_n_n none q k (constant (F := Ideal) S1024x2048 .f32 0x00000000#32))
    (broadcast S1024x2048 (Scalar.ofBits (F := Ideal) .f32 0x3E000000#32))

/-- The exponentials of the scores less their row's maximum. -/
def weightsOf (s : FVec Ideal S1024x2048 .f32) : FVec Ideal S1024x2048 .f32 :=
  exp (subf s (broadcastTo S1024x2048 (shapeCast S1024x1
    (multiReduction (F := Ideal) .maximumf [1] S1024 s 0xFF800000#32 reduces_S1024x2048_S1024 (.inl rfl) rfl)
    shapeCasts_S1024_S1024x1) broadcasts_S1024x1_S1024x2048))

/-- Each row's sum of weights, spread over the row. -/
def rowSumsOf (w : FVec Ideal S1024x2048 .f32) : FVec Ideal S1024x2048 .f32 :=
  broadcastTo S1024x2048 (shapeCast S1024x1
    (multiReduction (F := Ideal) .add [1] S1024 w 0x00000000#32 reduces_S1024x2048_S1024 (.inl rfl) rfl)
    shapeCasts_S1024_S1024x1) broadcasts_S1024x1_S1024x2048

/-- The weights divided by their row sums, times the value block. -/
def mixOf (w sb : FVec Ideal S1024x2048 .f32) (v : FVec Ideal S2048x64 .bf16) : FVec Ideal S1024x64 .f32 :=
  matmul dot_S1024x2048_S2048x64_S1024x64_1_0_0_1_n_n none (truncf .bf16 (divf w sb) bitsLt_bf16_f32) v
    (constant (F := Ideal) S1024x64 .f32 0x00000000#32)

/-- A weight at (r, j) is the softmax weight of entry `j` of score row `r`. -/
theorem weightsOf_apply (s : FVec Ideal S1024x2048 .f32) (r : Fin 1024) (j : Fin 2048) :
    weightsOf s (ix2 r j) = Cert.Attn.weight (fun j' => s (ix2 r j')) j :=
  congrArg (fun m => Ideal.exp (s (ix2 r j) - m)) (rowMax_spread_apply s r j)

/-- The spread row sums at (r, j) are the sum of row `r`. -/
theorem rowSumsOf_apply (w : FVec Ideal S1024x2048 .f32) (r : Fin 1024) (j : Fin 2048) :
    rowSumsOf w (ix2 r j) = ∑ j' : Fin 2048, w (ix2 r j') := rowSum_spread_apply w r j

/-- The whole head at (r, d): the softmax-weighted sum of the value rows' lane `d`. -/
theorem head_apply (q : FVec Ideal S1024x64 .bf16) (k v : FVec Ideal S2048x64 .bf16) (r : Fin 1024) (d : Fin 64) :
    mixOf (weightsOf (scoresOf q k)) (rowSumsOf (weightsOf (scoresOf q k))) v (ix2 r d)
      = Cert.Attn.head (fun d' => q (ix2 r d')) (fun j d' => k (ix2 j d')) (fun j d' => v (ix2 j d')) d := by
  have hs : (fun j' => scoresOf q k (ix2 r j')) = Cert.Attn.score (fun d' => q (ix2 r d')) (fun j d' => k (ix2 j d')) :=
    funext fun j' => scores_apply q k r j'
  have hw : ∀ j', weightsOf (scoresOf q k) (ix2 r j')
      = Cert.Attn.weight (Cert.Attn.score (fun d' => q (ix2 r d')) (fun j d' => k (ix2 j d'))) j' := fun j' =>
    (weightsOf_apply (scoresOf q k) r j').trans (congrArg (fun f => Cert.Attn.weight f j') hs)
  refine (MatmulAt.matmul_zero_at dot_S1024x2048_S2048x64_S1024x64_1_0_0_1_n_n rfl rfl lhs_pv_0 lhs_pv_1 rhs_pv_0 rhs_pv_1
    none _ v r d).trans ?_
  refine Finset.sum_congr rfl fun j _ => congrArg (· * v (ix2 j d)) ?_
  show Ideal.div (weightsOf (scoresOf q k) (ix2 r j)) (rowSumsOf (weightsOf (scoresOf q k)) (ix2 r j)) = _
  rw [rowSumsOf_apply, hw j, funext hw]
  rfl

/-! ## The body's payloads are that computation on the two heads' lanes -/

/-- Head 0's result is the head computation on the first 64 lanes of the three blocks. -/
theorem pay5_eq (x0 : Vec Ideal S1x1024x128 .f32) (x1 x2 : Vec Ideal S1x2048x128 .f32) :
    Gen.k0_pay5 (F := Ideal) x0 x1 x2
      = mixOf
          (weightsOf (scoresOf (extractStridedSlice S1024x64 ![0, 0] (Gen.k0_pay2 (F := Ideal) x0) slices_S1024x128_o0_0_S1024x64)
            (extractStridedSlice S2048x64 ![0, 0] (Gen.k0_pay3 (F := Ideal) x1) slices_S2048x128_o0_0_S2048x64)))
          (rowSumsOf (weightsOf (scoresOf (extractStridedSlice S1024x64 ![0, 0] (Gen.k0_pay2 (F := Ideal) x0) slices_S1024x128_o0_0_S1024x64)
            (extractStridedSlice S2048x64 ![0, 0] (Gen.k0_pay3 (F := Ideal) x1) slices_S2048x128_o0_0_S2048x64))))
          (extractStridedSlice S2048x64 ![0, 0] (Gen.k0_pay4 (F := Ideal) x2) slices_S2048x128_o0_0_S2048x64) := rfl

/-- Head 1's value operand: the last 64 lanes of the value block. -/
theorem pay6_eq (x2 : Vec Ideal S1x2048x128 .f32) :
    Gen.k0_pay6 (F := Ideal) x2
      = extractStridedSlice S2048x64 ![0, 64] (Gen.k0_pay4 (F := Ideal) x2) slices_S2048x128_o0_64_S2048x64 := rfl

/-- Head 1's weights: the last 64 lanes of the query and key blocks. -/
theorem pay7_eq (x0 : Vec Ideal S1x1024x128 .f32) (x1 : Vec Ideal S1x2048x128 .f32) :
    Gen.k0_pay7 (F := Ideal) x0 x1
      = weightsOf (scoresOf (extractStridedSlice S1024x64 ![0, 64] (Gen.k0_pay2 (F := Ideal) x0) slices_S1024x128_o0_64_S1024x64)
          (extractStridedSlice S2048x64 ![0, 64] (Gen.k0_pay3 (F := Ideal) x1) slices_S2048x128_o0_64_S2048x64)) := rfl

/-- Head 1's row sums are those of its weights. -/
theorem pay8_eq (x0 : Vec Ideal S1x1024x128 .f32) (x1 : Vec Ideal S1x2048x128 .f32) :
    Gen.k0_pay8 (F := Ideal) x0 x1 = rowSumsOf (Gen.k0_pay7 (F := Ideal) x0 x1) := rfl

/-! ## The two heads' operands: 64 lanes of each block -/

section Lanes
variable {n : ℕ} (X : (⟨2, ![n, 128]⟩ : Shape).Idx → EReal)

/-- The first 64 lanes of a 128-lane matrix are head 0's lanes. -/
theorem lanes0_apply (h : (⟨2, ![n, 128]⟩ : Shape).Slices ![0, 0] ⟨2, ![n, 64]⟩) (a : Fin n) (d' : Fin 64) :
    extractStridedSlice ⟨2, ![n, 64]⟩ ![0, 0] X h (ix2 a d') = X (ix2 a (Cert.Attn.lane 0 d')) :=
  slice2_axis1_apply 0 X h a d' (Cert.Attn.lane 0 d') (by show 0 * 64 + d'.val = 0 + d'.val; omega)

/-- The last 64 lanes are head 1's. -/
theorem lanes1_apply (h : (⟨2, ![n, 128]⟩ : Shape).Slices ![0, 64] ⟨2, ![n, 64]⟩) (a : Fin n) (d' : Fin 64) :
    extractStridedSlice ⟨2, ![n, 64]⟩ ![0, 64] X h (ix2 a d') = X (ix2 a (Cert.Attn.lane 1 d')) :=
  slice2_axis1_apply 64 X h a d' (Cert.Attn.lane 1 d') (by show 1 * 64 + d'.val = 64 + d'.val; omega)

end Lanes

/-! ## The two heads of the body -/

/-- Head 0's result at (r, d): the attention of query row `r` on the lanes of head 0. -/
theorem head0_apply (x0 : Vec Ideal S1x1024x128 .f32) (x1 x2 : Vec Ideal S1x2048x128 .f32) (r : Fin 1024) (d : Fin 64) :
    Gen.k0_pay5 (F := Ideal) x0 x1 x2 (ix2 r d)
      = Cert.Attn.head (fun d' => x0 (ix3 (0 : Fin 1) r (Cert.Attn.lane 0 d')))
          (fun j d' => x1 (ix3 (0 : Fin 1) j (Cert.Attn.lane 0 d'))) (fun j d' => x2 (ix3 (0 : Fin 1) j (Cert.Attn.lane 0 d'))) d := by
  have eq : (fun d' => extractStridedSlice S1024x64 ![0, 0] (Gen.k0_pay2 (F := Ideal) x0) slices_S1024x128_o0_0_S1024x64 (ix2 r d'))
      = fun d' => x0 (ix3 (0 : Fin 1) r (Cert.Attn.lane 0 d')) :=
    funext fun d' => (lanes0_apply _ _ r d').trans (pay2_apply x0 r _)
  have ek : (fun j d' => extractStridedSlice S2048x64 ![0, 0] (Gen.k0_pay3 (F := Ideal) x1) slices_S2048x128_o0_0_S2048x64 (ix2 j d'))
      = fun j d' => x1 (ix3 (0 : Fin 1) j (Cert.Attn.lane 0 d')) :=
    funext fun j => funext fun d' => (lanes0_apply _ _ j d').trans (pay3_apply x1 j _)
  have ev : (fun j d' => extractStridedSlice S2048x64 ![0, 0] (Gen.k0_pay4 (F := Ideal) x2) slices_S2048x128_o0_0_S2048x64 (ix2 j d'))
      = fun j d' => x2 (ix3 (0 : Fin 1) j (Cert.Attn.lane 0 d')) :=
    funext fun j => funext fun d' => (lanes0_apply _ _ j d').trans (pay4_apply x2 j _)
  refine (congrFun (pay5_eq x0 x1 x2) (ix2 r d)).trans ?_
  refine (head_apply _ _ _ r d).trans ?_
  rw [eq, ek, ev]

/-- Head 1's result at (r, d): the attention of query row `r` on the lanes of head 1. -/
theorem head1_apply (x0 : Vec Ideal S1x1024x128 .f32) (x1 x2 : Vec Ideal S1x2048x128 .f32) (r : Fin 1024) (d : Fin 64) :
    mixOf (Gen.k0_pay7 (F := Ideal) x0 x1) (Gen.k0_pay8 (F := Ideal) x0 x1) (Gen.k0_pay6 (F := Ideal) x2) (ix2 r d)
      = Cert.Attn.head (fun d' => x0 (ix3 (0 : Fin 1) r (Cert.Attn.lane 1 d')))
          (fun j d' => x1 (ix3 (0 : Fin 1) j (Cert.Attn.lane 1 d'))) (fun j d' => x2 (ix3 (0 : Fin 1) j (Cert.Attn.lane 1 d'))) d := by
  have eq : (fun d' => extractStridedSlice S1024x64 ![0, 64] (Gen.k0_pay2 (F := Ideal) x0) slices_S1024x128_o0_64_S1024x64 (ix2 r d'))
      = fun d' => x0 (ix3 (0 : Fin 1) r (Cert.Attn.lane 1 d')) :=
    funext fun d' => (lanes1_apply _ _ r d').trans (pay2_apply x0 r _)
  have ek : (fun j d' => extractStridedSlice S2048x64 ![0, 64] (Gen.k0_pay3 (F := Ideal) x1) slices_S2048x128_o0_64_S2048x64 (ix2 j d'))
      = fun j d' => x1 (ix3 (0 : Fin 1) j (Cert.Attn.lane 1 d')) :=
    funext fun j => funext fun d' => (lanes1_apply _ _ j d').trans (pay3_apply x1 j _)
  have ev : (fun j d' => extractStridedSlice S2048x64 ![0, 64] (Gen.k0_pay4 (F := Ideal) x2) slices_S2048x128_o0_64_S2048x64 (ix2 j d'))
      = fun j d' => x2 (ix3 (0 : Fin 1) j (Cert.Attn.lane 1 d')) :=
    funext fun j => funext fun d' => (lanes1_apply _ _ j d').trans (pay4_apply x2 j _)
  rw [pay8_eq, pay7_eq, pay6_eq]
  refine (head_apply _ _ _ r d).trans ?_
  rw [eq, ek, ev]

/-! ## The stored block -/

/-- A head index is 0 or 1. -/
theorem head_cases (hh : Fin 2) : hh = 0 ∨ hh = 1 := by
  rcases Nat.lt_or_ge hh.val 1 with h | h
  · exact .inl (Fin.ext (by show hh.val = 0; omega))
  · exact .inr (Fin.ext (by have := hh.isLt; show hh.val = 1; omega))

/-- THE BODY'S VALUE: at row `r` and lane `hh * 64 + d` of the stored block, one head's attention of query row `r`'s
    lanes of head `hh` against all 2048 key rows' and value rows' lanes of head `hh`. -/
theorem body_apply (x0 : Vec Ideal S1x1024x128 .f32) (x1 x2 : Vec Ideal S1x2048x128 .f32) (r : Fin 1024) (hh : Fin 2) (d : Fin 64) :
    Gen.k0_pay1 (F := Ideal) (Gen.k0_pay5 x0 x1 x2) (Gen.k0_pay6 x2) (Gen.k0_pay7 x0 x1) (Gen.k0_pay8 x0 x1)
        (ix3 (0 : Fin 1) r (Cert.Attn.lane hh d))
      = Cert.Attn.head (fun d' => x0 (ix3 (0 : Fin 1) r (Cert.Attn.lane hh d')))
          (fun j d' => x1 (ix3 (0 : Fin 1) j (Cert.Attn.lane hh d'))) (fun j d' => x2 (ix3 (0 : Fin 1) j (Cert.Attn.lane hh d'))) d := by
  unfold Gen.k0_pay1
  refine (shapeCast_ab_1ab_apply _ _ (0 : Fin 1) r (Cert.Attn.lane hh d)).trans ?_
  rcases head_cases hh with rfl | rfl
  · refine (concatenate_pair_apply_left (1 : Fin S1024x128.rank) _ _ concatenates_S1024x64_S1024x64_S1024x128_d1
      (ix2 r (Cert.Attn.lane 0 d)) rfl (ix2 r d) (fun b => by
        match b with
        | ⟨0, _⟩ => rfl
        | ⟨1, _⟩ => show d.val = 0 * 64 + d.val; omega)).trans ?_
    exact head0_apply x0 x1 x2 r d
  · refine (concatenate_pair_apply_right (1 : Fin S1024x128.rank) _ _ concatenates_S1024x64_S1024x64_S1024x128_d1
      (ix2 r (Cert.Attn.lane 1 d)) rfl rfl (ix2 r d) (fun b hb => by
        match b, hb with
        | ⟨0, _⟩, _ => rfl
        | ⟨1, _⟩, hb => exact absurd rfl hb) (by show d.val + 64 = 1 * 64 + d.val; omega)).trans ?_
    exact head1_apply x0 x1 x2 r d

end Cert.KernelIdeal.BodyValue

end
-- ==== Proof.ValueI.lean ====
/-
  The result array of the attention kernel, as one function of the argument array.

  Each of the 48 points writes back one [1, 1024, 128] block: batch `b`, query tile `qi`, head pair `p`. Its lanes
  [0, 64) and [64, 128) are heads `2 p` and `2 p + 1`; at row `r` the body's store holds one head's attention of query
  row `1024 qi + r` against all 2048 key and value rows of that head, whose lanes the staged blocks carry at the same
  offsets (the key block six, the value block twelve column blocks further on). So the block is the restriction of
  `Cert.Attn.attn` of the whole argument array, the 48 blocks tile the result array, and the array ends at `attn`.
-/
import proofs.«418524_j62156766708341_3_alg».proof.Proof.LaunchI
import proofs.«418524_j62156766708341_3_alg».proof.Proof.BodyValue
import proofs.«418524_j62156766708341_3_alg».proof.Proof.Spec
import Idealize.ShloMosaic.Lib.Pipeline.Value
import Idealize.ShloMosaic.Lib.ValueIdx

set_option maxRecDepth 16384

noncomputable section

namespace Cert.KernelIdeal.RegionValue

open Cert.KernelIdeal Cert.KernelIdeal.Gen Cert.KernelIdeal.Region
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz3 : (![0, 0, 0] : Fin 3 → Nat) = fun _ => 0 := funext fun a => by fin_cases a <;> rfl

/-- The printed index maps, decided over the 48 points: the query window moves with the result window; the key and
    value windows take the same batch, the whole row axis, and the column block six, respectively twelve, blocks further
    on; and the result window's block indices range over 4 × 2 × 6. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = win0_3.index t (2 : Fin 3)
    ∧ win0_1.index t (0 : Fin 3) = win0_3.index t (0 : Fin 3) ∧ win0_1.index t (1 : Fin 3) = 0
    ∧ win0_1.index t (2 : Fin 3) = 6 + win0_3.index t (2 : Fin 3)
    ∧ win0_2.index t (0 : Fin 3) = win0_3.index t (0 : Fin 3) ∧ win0_2.index t (1 : Fin 3) = 0
    ∧ win0_2.index t (2 : Fin 3) = 12 + win0_3.index t (2 : Fin 3)
    ∧ win0_3.index t (0 : Fin 3) ≤ 3 ∧ win0_3.index t (1 : Fin 3) ≤ 1 ∧ win0_3.index t (2 : Fin 3) ≤ 5 :=
  (by decide +kernel : ∀ t : Fin grid0.N, _)

/-- Every block of the result array is some point's. -/
theorem idx_onto : ∀ (q0 : Fin 4) (q1 : Fin 2) (q2 : Fin 6), ∃ t : Fin cfg0.N, win0_3.index t = ![q0.val, q1.val, q2.val] :=
  (by decide +kernel : ∀ (q0 : Fin 4) (q1 : Fin 2) (q2 : Fin 6), ∃ t : Fin grid0.N, win0_3.index t = ![q0.val, q1.val, q2.val])

/-- WHAT POINT `t` WRITES BACK is block `t` of the attention of the argument array: lane `hh * 64 + d` of row `r` of
    the block is head `2 p + hh`'s attention for query row `1024 qi + r`, whose query, key and value lanes are exactly
    the lanes of the three staged blocks. -/
theorem flushed_eq (c : Dev nD) (t : Fin cfg0.N) :
    (dats m 0 c).flushed 3 t = ((cfg0.win 3).blk t).view.read (Elt Ideal) (Cert.Attn.attn (V m c main_arg0)) := by
  show (cfg0.win 3).cut (grid0.coords t) ((dats m 0 c).after 3 t) = _
  rw [after_o]
  unfold blockOut
  rw [View.canon_unit_zero hz3]
  simp only [View.ld_unit_zero (S := S1x1024x128) hz3, View.ld_unit_zero (S := S1x2048x128) hz3]
  obtain ⟨e0, e1, e2, e3, e4, e5, e6, e7, e8, e9, e10, e11⟩ := idx_facts t
  funext j
  have hj1 : (j 1).val < 1024 := (j 1).isLt
  have hj2 : (j 2).val < 128 := (j 2).isLt
  have hj0 : (j 0).val < 1 := (j 0).isLt
  obtain ⟨r, hh, d, rfl⟩ : ∃ (r : Fin 1024) (hh : Fin 2) (d : Fin 64), j = ix3 (0 : Fin 1) r (Cert.Attn.lane hh d) :=
    ⟨⟨(j 1).val, hj1⟩, ⟨(j 2).val / 64, by omega⟩, ⟨(j 2).val % 64, by omega⟩, funext fun a => Fin.ext (by
      match a with
      | ⟨0, _⟩ => show (j 0).val = 0; omega
      | ⟨1, _⟩ => rfl
      | ⟨2, _⟩ => show (j 2).val = (j 2).val / 64 * 64 + (j 2).val % 64; omega)⟩
  show k0_pay1 (F := Ideal) (k0_pay5 (iblk m c 0 t) (iblk m c 1 t) (iblk m c 2 t)) (k0_pay6 (iblk m c 2 t)) (k0_pay7 (iblk m c 0 t) (iblk m c 1 t))
      (k0_pay8 (iblk m c 0 t) (iblk m c 1 t)) (ix3 (0 : Fin 1) r (Cert.Attn.lane hh d))
    = Cert.Attn.attn (V m c main_arg0) (((cfg0.win 3).blk t).view.emb (ix3 (0 : Fin 1) r (Cert.Attn.lane hh d)))
  refine (Cert.KernelIdeal.BodyValue.body_apply (iblk m c 0 t) (iblk m c 1 t) (iblk m c 2 t) r hh d).trans ?_
  have hr : r.val < 1024 := r.isLt
  have hhh : hh.val < 2 := hh.isLt
  have hd : d.val < 64 := d.isLt
  -- the output index of this entry, by coordinates
  have o0 : ((((cfg0.win 3).blk t).view.emb (ix3 (0 : Fin 1) r (Cert.Attn.lane hh d))) (0 : Fin 3)).val = win0_3.index t (0 : Fin 3) * 1 + 1 * 0 := rfl
  have o1 : ((((cfg0.win 3).blk t).view.emb (ix3 (0 : Fin 1) r (Cert.Attn.lane hh d))) (1 : Fin 3)).val = win0_3.index t (1 : Fin 3) * 1024 + 1 * r.val := rfl
  have o2 : ((((cfg0.win 3).blk t).view.emb (ix3 (0 : Fin 1) r (Cert.Attn.lane hh d))) (2 : Fin 3)).val = win0_3.index t (2 : Fin 3) * 128 + 1 * (hh.val * 64 + d.val) := rfl
  generalize ((cfg0.win 3).blk t).view.emb (ix3 (0 : Fin 1) r (Cert.Attn.lane hh d)) = o at o0 o1 o2
  rw [show Cert.Attn.attn (V m c main_arg0) o = Cert.Attn.attnAt (V m c main_arg0) (o 0) (o 1) (Cert.Attn.headOf (o 2)) (Cert.Attn.laneOf (o 2)) from rfl]
  unfold Cert.Attn.attnAt
  have hlane : Cert.Attn.laneOf (o 2) = d := Fin.ext (by show (o 2).val % 64 = d.val; omega)
  have hq : (fun d' : Fin 64 => iblk m c 0 t (ix3 (0 : Fin 1) r (Cert.Attn.lane hh d')))
      = fun d' => V m c main_arg0 (ix3 (o 0) (o 1) (Cert.Attn.col 0 (Cert.Attn.headOf (o 2)) d')) := funext fun d' => by
    have hd' : d'.val < 64 := d'.isLt
    show V m c main_arg0 (((cfg0.win 0).blk t).view.emb (ix3 (0 : Fin 1) r (Cert.Attn.lane hh d'))) = _
    refine congrArg (V m c main_arg0) (funext fun a => Fin.ext ?_)
    match a with
    | ⟨0, _⟩ => show win0_0.index t (0 : Fin 3) * 1 + 1 * 0 = (o 0).val; omega
    | ⟨1, _⟩ => show win0_0.index t (1 : Fin 3) * 1024 + 1 * r.val = (o 1).val; omega
    | ⟨2, _⟩ => show win0_0.index t (2 : Fin 3) * 128 + 1 * (hh.val * 64 + d'.val) = 0 * 768 + (o 2).val / 64 * 64 + d'.val; omega
  have hk : (fun (j : Fin 2048) (d' : Fin 64) => iblk m c 1 t (ix3 (0 : Fin 1) j (Cert.Attn.lane hh d')))
      = fun j d' => V m c main_arg0 (ix3 (o 0) j (Cert.Attn.col 1 (Cert.Attn.headOf (o 2)) d')) := funext fun j => funext fun d' => by
    have hd' : d'.val < 64 := d'.isLt
    show V m c main_arg0 (((cfg0.win 1).blk t).view.emb (ix3 (0 : Fin 1) j (Cert.Attn.lane hh d'))) = _
    refine congrArg (V m c main_arg0) (funext fun a => Fin.ext ?_)
    match a with
    | ⟨0, _⟩ => show win0_1.index t (0 : Fin 3) * 1 + 1 * 0 = (o 0).val; omega
    | ⟨1, _⟩ => show win0_1.index t (1 : Fin 3) * 2048 + 1 * j.val = j.val; omega
    | ⟨2, _⟩ => show win0_1.index t (2 : Fin 3) * 128 + 1 * (hh.val * 64 + d'.val) = 1 * 768 + (o 2).val / 64 * 64 + d'.val; omega
  have hv : (fun (j : Fin 2048) (d' : Fin 64) => iblk m c 2 t (ix3 (0 : Fin 1) j (Cert.Attn.lane hh d')))
      = fun j d' => V m c main_arg0 (ix3 (o 0) j (Cert.Attn.col 2 (Cert.Attn.headOf (o 2)) d')) := funext fun j => funext fun d' => by
    have hd' : d'.val < 64 := d'.isLt
    show V m c main_arg0 (((cfg0.win 2).blk t).view.emb (ix3 (0 : Fin 1) j (Cert.Attn.lane hh d'))) = _
    refine congrArg (V m c main_arg0) (funext fun a => Fin.ext ?_)
    match a with
    | ⟨0, _⟩ => show win0_2.index t (0 : Fin 3) * 1 + 1 * 0 = (o 0).val; omega
    | ⟨1, _⟩ => show win0_2.index t (1 : Fin 3) * 2048 + 1 * j.val = j.val; omega
    | ⟨2, _⟩ => show win0_2.index t (2 : Fin 3) * 128 + 1 * (hh.val * 64 + d'.val) = 2 * 768 + (o 2).val / 64 * 64 + d'.val; omega
  rw [hq, hk, hv, hlane]

/-- An index of the result array is in point `t`'s block iff each coordinate is in the block's range on its axis. -/
theorem mem_blk (t : Fin cfg0.N) (i : S4x2048x768.Idx) :
    i ∈ ((cfg0.win 3).blk t).view.set ↔ ∀ a : Fin 3, win0_3.index t a * S1x1024x128.size a ≤ (i a).val ∧ (i a).val < win0_3.index t a * S1x1024x128.size a + S1x1024x128.size a := by
  show i ∈ ((View.whole main_v0).slice (win0_3.rect t)).set ↔ _
  rw [View.set_slice_whole, Rect.mem_set_unit]
  exact Iff.rfl

/-- The result's blocks tile its array: index (b, n, col) lies in the block of the point with block index
    (b, n / 1024, col / 128). -/
theorem cover (i : S4x2048x768.Idx) : ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 768 := (i 2).isLt
  obtain ⟨t, ht⟩ := idx_onto ⟨(i 0).val, hi0⟩ ⟨(i 1).val / 1024, by omega⟩ ⟨(i 2).val / 128, by omega⟩
  have q0 : win0_3.index t (0 : Fin 3) = (i 0).val := congrFun ht 0
  have q1 : win0_3.index t (1 : Fin 3) = (i 1).val / 1024 := congrFun ht 1
  have q2 : win0_3.index t (2 : Fin 3) = (i 2).val / 128 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 128 ≤ (i 2).val ∧ (i 2).val < win0_3.index t (2 : Fin 3) * 128 + 128; omega

/-- THE RESULT ARRAY after the run is the attention of the argument array. -/
theorem final (c : Dev nD) : (dats m 0 c).arrAt 3 cfg0.N = Cert.Attn.attn (V m c main_arg0) :=
  (dats m 0 c).arrAt_eq_of_cover 3 (Cert.Attn.attn (V m c main_arg0)) (fun t _ => flushed_eq m c t) cover

/-- The run, read: the result array ends at the attention of the argument array as launched, which ends unchanged. -/
theorem run : θ_run defs (onTc (τ := τ) (main (F := Ideal))) ⟨m, fun _ => 0, ρ⟩ fun r => ∀ c : Dev nD,
      r.2.mem ((c.tc : Thread nD τ).loc main_v0) = Cert.Attn.attn (m ((c.tc : Thread nD τ).loc main_arg0))
      ∧ r.2.mem ((c.tc : Thread nD τ).loc main_arg0) = m ((c.tc : Thread nD τ).loc main_arg0) :=
  (θ_run defs _ _).mono (fun _ h c => ⟨(h c).1.trans (final m c), (h c).2⟩) (run_blocks m ρ)

end Cert.KernelIdeal.RegionValue

end
-- ==== Proof.RefValue.lean ====
/-
  The reference program's last stage is the attention function of the specification.

  The program reshapes the packed [4, 2048, 2304] array to [4, 2048, 3, 12, 64], moves the slab axis to the front, and cuts
  out queries, keys and values as [4, 12, 2048, 64] arrays; so each of them at (b, h, n, d) is the argument at row (b, n)
  and column slab * 768 + h * 64 + d. The scores are the contraction over the 64 lanes times 1 / sqrt 64 = 1/8, the row
  maximum is a fold of max from -inf (taken once more against -inf, which changes nothing), the weights the
  exponentials of the differences, the row sum starts from the zero word, and the result of the second contraction
  is laid back as column h * 64 + d of row (b, n). Each stage is read at explicit coordinates and identified with the
  specification's function of the same name.
-/
import proofs.«418524_j62156766708341_3_alg».proof.Proof.Gen.ReferenceIdeal.Read
import proofs.«418524_j62156766708341_3_alg».proof.Proof.Spec
import Idealize.ShloMosaic.PureOps.Reduce
import Idealize.ShloMosaic.PureOps.Ideal.Laws
import Idealize.ShloMosaic.Lib.ValueIdx
import Mathlib.Data.Finset.Fold

noncomputable section

namespace Cert.ReferenceIdeal.RefValue

open Cert.ReferenceIdeal Cert.ReferenceIdeal.Gen Cert.ReferenceIdeal.Read Idealize.ShloMosaic Idealize.ShloMosaic.ValueIdx Cert.Attn

/-- The argument array's type, as the program states it. -/
abbrev Arg : Type := (⟨S4x2048x2304, .f32⟩ : BufTy).Contents (Elt Ideal)

/-! ## The layout stages in front: queries, keys and values at coordinates -/

/-- Dropping the leading unit axis: (b, h, n, d) of the rank-4 array is (0, b, h, n, d) of the rank-5 one. -/
theorem idx_v3_ix4 (b : Fin 4) (h : Fin 12) (n : Fin 2048) (d : Fin 64) :
    idx_main_v3 (ix4 b h n d) = ix5 (0 : Fin 1) b h n d := by
  have hb := b.isLt; have hh := h.isLt; have hn := n.isLt; have hd := d.isLt
  funext a; apply Fin.ext
  match a with
  | ⟨0, _⟩ => rfl
  | ⟨1, _⟩ => show (((b.val * 12 + h.val) * 2048 + n.val) * 64 + d.val) / 1572864 % 4 = b.val; omega
  | ⟨2, _⟩ => show (((b.val * 12 + h.val) * 2048 + n.val) * 64 + d.val) / 131072 % 12 = h.val; omega
  | ⟨3, _⟩ => show (((b.val * 12 + h.val) * 2048 + n.val) * 64 + d.val) / 64 % 2048 = n.val; omega
  | ⟨4, _⟩ => show (((b.val * 12 + h.val) * 2048 + n.val) * 64 + d.val) % 64 = d.val; omega

theorem idx_v5_ix4 (b : Fin 4) (h : Fin 12) (n : Fin 2048) (d : Fin 64) :
    idx_main_v5 (ix4 b h n d) = ix5 (0 : Fin 1) b h n d := idx_v3_ix4 b h n d

theorem idx_v7_ix4 (b : Fin 4) (h : Fin 12) (n : Fin 2048) (d : Fin 64) :
    idx_main_v7 (ix4 b h n d) = ix5 (0 : Fin 1) b h n d := idx_v3_ix4 b h n d

/-- The three slices: slab 0, 1, 2 of the leading axis. -/
theorem idx_v2_ix5 (b : Fin 4) (h : Fin 12) (n : Fin 2048) (d : Fin 64) :
    idx_main_v2 (ix5 (0 : Fin 1) b h n d) = ix5 (0 : Fin 3) b h n d := by
  funext a; apply Fin.ext
  match a with
  | ⟨0, _⟩ => rfl
  | ⟨1, _⟩ => rfl
  | ⟨2, _⟩ => rfl
  | ⟨3, _⟩ => rfl
  | ⟨4, _⟩ => rfl

theorem idx_v4_ix5 (b : Fin 4) (h : Fin 12) (n : Fin 2048) (d : Fin 64) :
    idx_main_v4 (ix5 (0 : Fin 1) b h n d) = ix5 (1 : Fin 3) b h n d := by
  funext a; apply Fin.ext
  match a with
  | ⟨0, _⟩ => rfl
  | ⟨1, _⟩ => rfl
  | ⟨2, _⟩ => rfl
  | ⟨3, _⟩ => rfl
  | ⟨4, _⟩ => rfl

theorem idx_v6_ix5 (b : Fin 4) (h : Fin 12) (n : Fin 2048) (d : Fin 64) :
    idx_main_v6 (ix5 (0 : Fin 1) b h n d) = ix5 (2 : Fin 3) b h n d := by
  funext a; apply Fin.ext
  match a with
  | ⟨0, _⟩ => rfl
  | ⟨1, _⟩ => rfl
  | ⟨2, _⟩ => rfl
  | ⟨3, _⟩ => rfl
  | ⟨4, _⟩ => rfl

/-- The transposition [2, 0, 3, 1, 4]: (p, b, h, n, d) comes from (b, n, p, h, d). -/
theorem idx_v1_ix5 (p : Fin 3) (b : Fin 4) (h : Fin 12) (n : Fin 2048) (d : Fin 64) :
    idx_main_v1 (ix5 p b h n d) = ix5 b n p h d := by
  funext a; apply Fin.ext
  match a with
  | ⟨0, _⟩ => rfl
  | ⟨1, _⟩ => rfl
  | ⟨2, _⟩ => rfl
  | ⟨3, _⟩ => rfl
  | ⟨4, _⟩ => rfl

/-- The first reshape: (b, n, p, h, d) is column p * 768 + h * 64 + d of row (b, n). -/
theorem idx_v0_ix5 (b : Fin 4) (n : Fin 2048) (p : Fin 3) (h : Fin 12) (d : Fin 64) :
    idx_main_v0 (ix5 b n p h d) = ix3 b n (col p h d) := by
  have hb := b.isLt; have hh := h.isLt; have hn := n.isLt; have hd := d.isLt; have hp := p.isLt
  funext a; apply Fin.ext
  match a with
  | ⟨0, _⟩ => show ((((b.val * 2048 + n.val) * 3 + p.val) * 12 + h.val) * 64 + d.val) / 4718592 = b.val; omega
  | ⟨1, _⟩ => show ((((b.val * 2048 + n.val) * 3 + p.val) * 12 + h.val) * 64 + d.val) / 2304 % 2048 = n.val; omega
  | ⟨2, _⟩ => show ((((b.val * 2048 + n.val) * 3 + p.val) * 12 + h.val) * 64 + d.val) % 2304 = p.val * 768 + h.val * 64 + d.val; omega

/-- Queries at (b, h, n, d). -/
theorem q_at (x : Arg) (b : Fin 4) (h : Fin 12) (n : Fin 2048) (d : Fin 64) :
    val_main_v3 (F := Ideal) x (ix4 b h n d) = x (ix3 b n (col 0 h d)) := by
  rw [val_main_v3_apply, idx_v3_ix4, val_main_v2_apply, idx_v2_ix5, val_main_v1_apply, idx_v1_ix5, val_main_v0_apply,
    idx_v0_ix5]

/-- Keys at (b, h, n, d). -/
theorem k_at (x : Arg) (b : Fin 4) (h : Fin 12) (n : Fin 2048) (d : Fin 64) :
    val_main_v5 (F := Ideal) x (ix4 b h n d) = x (ix3 b n (col 1 h d)) := by
  rw [val_main_v5_apply, idx_v5_ix4, val_main_v4_apply, idx_v4_ix5, val_main_v1_apply, idx_v1_ix5, val_main_v0_apply,
    idx_v0_ix5]

/-- Values at (b, h, n, d). -/
theorem v_at (x : Arg) (b : Fin 4) (h : Fin 12) (n : Fin 2048) (d : Fin 64) :
    val_main_v7 (F := Ideal) x (ix4 b h n d) = x (ix3 b n (col 2 h d)) := by
  rw [val_main_v7_apply, idx_v7_ix4, val_main_v6_apply, idx_v6_ix5, val_main_v1_apply, idx_v1_ix5, val_main_v0_apply,
    idx_v0_ix5]

/-! ## The scale -/

/-- The word `0x3F800000` is the real one. -/
theorem ofBits_one : Ideal.ofBits .f32 0x3F800000#32 = ((1 : ℝ) : EReal) := by
  simp [Ideal.ofBits, Ideal.ieee, -EReal.coe_mul]; norm_num

/-- The word `0x42800000` is sixty-four. -/
theorem ofBits_sixtyfour : Ideal.ofBits .f32 0x42800000#32 = ((64 : ℝ) : EReal) := by
  simp [Ideal.ofBits, Ideal.ieee, -EReal.coe_mul]; norm_num

/-- The word `0x3E000000` is one eighth. -/
theorem ofBits_eighth : Ideal.ofBits .f32 0x3E000000#32 = ((1 / 8 : ℝ) : EReal) := by
  simp [Ideal.ofBits, Ideal.ieee, -EReal.coe_mul]; norm_num

/-- `1 / sqrt 64 = 1/8`, as words: the square root of `64 = 8 ^ 2` is `8`, and dividing by the real `8` multiplies
    by `1/8`. -/
theorem scale_value :
    Ideal.div (Ideal.ofBits .f32 0x3F800000#32) (Ideal.sqrt (Ideal.ofBits .f32 0x42800000#32)) = scale := by
  have h8 : Real.sqrt 64 = 8 := by
    rw [show (64 : ℝ) = 8 ^ 2 by norm_num, Real.sqrt_sq (by norm_num)]
  unfold scale
  rw [ofBits_one, ofBits_sixtyfour, ofBits_eighth, Ideal.sqrt_coe, if_neg (by norm_num), h8,
    Ideal.div_coe (by norm_num : (8 : ℝ) ≠ 0), ← EReal.coe_mul, one_mul]

/-- The scalar the scores are multiplied by, at its one index. -/
theorem scale_at (i : S_.Idx) : val_main_v9 (F := Ideal) i = scale := by
  rw [val_main_v9_apply, val_main_cst_0_apply, val_main_v8_apply, val_main_cst_apply]
  exact scale_value

/-! ## Scores -/

/-- The row of scaled scores of query row `n` of head `h` in batch `b`, as the specification writes it. -/
abbrev scoreRow (x : Arg) (b : Fin 4) (h : Fin 12) (n : Fin 2048) : Fin 2048 → EReal :=
  score (fun d' => x (ix3 b n (col 0 h d'))) (fun j d' => x (ix3 b j (col 1 h d')))

theorem lidx_v10_ix4 (b : Fin 4) (h : Fin 12) (n j : Fin 2048) (k : Fin 64) :
    lidx_main_v10 (ix4 b h n j) k = ix4 b h n k := by
  funext a; apply Fin.ext
  match a with
  | ⟨0, _⟩ => rfl
  | ⟨1, _⟩ => rfl
  | ⟨2, _⟩ => rfl
  | ⟨3, _⟩ => rfl

theorem ridx_v10_ix4 (b : Fin 4) (h : Fin 12) (n j : Fin 2048) (k : Fin 64) :
    ridx_main_v10 (ix4 b h n j) k = ix4 b h j k := by
  funext a; apply Fin.ext
  match a with
  | ⟨0, _⟩ => rfl
  | ⟨1, _⟩ => rfl
  | ⟨2, _⟩ => rfl
  | ⟨3, _⟩ => rfl

/-- The scaled contraction at (b, h, n, j) is the specification's score of row `n` against key row `j`. -/
theorem score_at (x : Arg) (b : Fin 4) (h : Fin 12) (n j : Fin 2048) :
    val_main_v12 (F := Ideal) x (ix4 b h n j) = scoreRow x b h n j := by
  rw [val_main_v12_apply, val_main_v10_apply, val_main_v11_apply, scale_at, Ideal.mulf_def]
  unfold scoreRow score
  refine congrArg (· * scale) (Finset.sum_congr rfl fun k _ => ?_)
  rw [lidx_v10_ix4, ridx_v10_ix4, q_at, k_at]

/-! ## The row maximum -/

/-- The shape fact that names the index a reduced one is lifted to. -/
theorem reduces_d3 : S4x12x2048x2048.Reduces [3] S4x12x2048 := by decide

/-- The reduced index (b, h, n) with `j` inserted on the last axis is (b, h, n, j). -/
theorem lift_ix3 (b : Fin 4) (h : Fin 12) (n j : Fin 2048) :
    reduces_d3.lift (ix3 b h n) j = ix4 b h n j := by
  funext a; apply Fin.ext
  match a with
  | ⟨0, _⟩ => rfl
  | ⟨1, _⟩ => rfl
  | ⟨2, _⟩ => rfl
  | ⟨3, _⟩ => rfl

/-- A fold of `max` is at least the value it starts from, so taking `max` with that value once more changes nothing. -/
theorem max_init_fold (c : EReal) (s : Fin 2048 → EReal) :
    max c ((Finset.univ : Finset (Fin 2048)).fold max c s) = (Finset.univ : Finset (Fin 2048)).fold max c s :=
  max_eq_right ((Finset.le_fold_max c).mpr (Or.inl le_rfl))

/-- The max-reduce at (b, h, n): the fold of `max` from `-∞` over the row of scores. -/
theorem reduce_max_at (x : Arg) (b : Fin 4) (h : Fin 12) (n : Fin 2048) :
    val_main_v13 (F := Ideal) x (ix3 b h n)
      = (Finset.univ : Finset (Fin 2048)).fold max negInf (fun j => val_main_v12 (F := Ideal) x (ix4 b h n j)) := by
  unfold val_main_v13
  generalize val_main_v12 (F := Ideal) x = y
  rw [Host.reduce_eq_fold_single (FloatOps.maximumf (F := Ideal) (φ := .f32)) y (val_main_cst_1 (F := Ideal))
    reducesTo_S4x12x2048x2048_S4x12x2048_d3 reduces_d3 h_S_ (ix3 b h n)]
  have e : (y ∘ reduces_d3.lift (ix3 b h n)) = fun j => y (ix4 b h n j) := funext fun j => congrArg y (lift_ix3 b h n j)
  rw [e]
  rfl

/-- The row maximum at (b, h, n) is the specification's `rowMax` of the row of scores. -/
theorem max_at (x : Arg) (b : Fin 4) (h : Fin 12) (n : Fin 2048) :
    val_main_v15 (F := Ideal) x (ix3 b h n) = rowMax (scoreRow x b h n) := by
  rw [val_main_v15_apply, val_main_v14_apply, val_main_cst_2_apply, reduce_max_at, Ideal.maximumf_def, Ideal.ofBits_def]
  have e : (fun j => val_main_v12 (F := Ideal) x (ix4 b h n j)) = scoreRow x b h n := funext fun j => score_at x b h n j
  rw [e]
  exact max_init_fold negInf _

/-! ## Weights, their sum, the softmax -/

theorem idx_v16_v17_ix4 (b : Fin 4) (h : Fin 12) (n j : Fin 2048) :
    idx_main_v16 (idx_main_v17 (ix4 b h n j)) = ix3 b h n := by
  funext a; apply Fin.ext
  match a with
  | ⟨0, _⟩ => rfl
  | ⟨1, _⟩ => rfl
  | ⟨2, _⟩ => rfl

theorem idx_v21_v22_ix4 (b : Fin 4) (h : Fin 12) (n j : Fin 2048) :
    idx_main_v21 (idx_main_v22 (ix4 b h n j)) = ix3 b h n := by
  funext a; apply Fin.ext
  match a with
  | ⟨0, _⟩ => rfl
  | ⟨1, _⟩ => rfl
  | ⟨2, _⟩ => rfl

theorem idx_v20_ix3 (b : Fin 4) (h : Fin 12) (n k : Fin 2048) :
    idx_main_v20 (ix3 b h n) k = ix4 b h n k := by
  funext a; apply Fin.ext
  match a with
  | ⟨0, _⟩ => rfl
  | ⟨1, _⟩ => rfl
  | ⟨2, _⟩ => rfl
  | ⟨3, _⟩ => rfl

/-- The exponential of score minus row maximum at (b, h, n, j) is the specification's weight. -/
theorem weight_at (x : Arg) (b : Fin 4) (h : Fin 12) (n j : Fin 2048) :
    val_main_v19 (F := Ideal) x (ix4 b h n j) = weight (scoreRow x b h n) j := by
  rw [val_main_v19_apply, val_main_v18_apply, val_main_v17_apply, val_main_v16_apply, idx_v16_v17_ix4, max_at, score_at,
    Ideal.hostUnary_exp_def, Ideal.subf_def]
  rfl

/-- The add-reduce at (b, h, n): it starts from the zero word, so it is the sum of the row's weights. -/
theorem sum_at (x : Arg) (b : Fin 4) (h : Fin 12) (n : Fin 2048) :
    val_main_v20 (F := Ideal) x (ix3 b h n) = ∑ j' : Fin 2048, weight (scoreRow x b h n) j' := by
  rw [val_main_v20_apply, val_main_cst_3_apply, Ideal.ofBits_def, Ideal.ofBits_zero_f32, zero_add]
  exact Finset.sum_congr rfl fun k _ => by rw [idx_v20_ix3, weight_at]

/-- The quotient at (b, h, n, j) is the specification's softmax entry. -/
theorem prob_at (x : Arg) (b : Fin 4) (h : Fin 12) (n j : Fin 2048) :
    val_main_v23 (F := Ideal) x (ix4 b h n j) = prob (scoreRow x b h n) j := by
  rw [val_main_v23_apply, val_main_v22_apply, val_main_v21_apply, idx_v21_v22_ix4, sum_at, weight_at, Ideal.hostDivf_def]
  rfl

/-! ## The weighted sum of the value rows, and the way back to the packed layout -/

theorem lidx_v24_ix4 (b : Fin 4) (h : Fin 12) (n : Fin 2048) (d : Fin 64) (k : Fin 2048) :
    lidx_main_v24 (ix4 b h n d) k = ix4 b h n k := by
  funext a; apply Fin.ext
  match a with
  | ⟨0, _⟩ => rfl
  | ⟨1, _⟩ => rfl
  | ⟨2, _⟩ => rfl
  | ⟨3, _⟩ => rfl

theorem ridx_v24_ix4 (b : Fin 4) (h : Fin 12) (n : Fin 2048) (d : Fin 64) (k : Fin 2048) :
    ridx_main_v24 (ix4 b h n d) k = ix4 b h k d := by
  funext a; apply Fin.ext
  match a with
  | ⟨0, _⟩ => rfl
  | ⟨1, _⟩ => rfl
  | ⟨2, _⟩ => rfl
  | ⟨3, _⟩ => rfl

/-- The second contraction at (b, h, n, d) is the specification's result for that batch, row, head and lane. -/
theorem head_at (x : Arg) (b : Fin 4) (h : Fin 12) (n : Fin 2048) (d : Fin 64) :
    val_main_v24 (F := Ideal) x (ix4 b h n d) = attnAt x b n h d := by
  rw [val_main_v24_apply]
  unfold attnAt head
  refine Finset.sum_congr rfl fun k _ => ?_
  rw [lidx_v24_ix4, ridx_v24_ix4, prob_at, v_at]

/-- The last transposition and reshape: column `c` of row (b, n) comes from head `c / 64`, lane `c % 64`. -/
theorem idx_v25_v26_ix3 (b : Fin 4) (n : Fin 2048) (c : Fin 768) :
    idx_main_v25 (idx_main_v26 (ix3 b n c)) = ix4 b (headOf c) n (laneOf c) := by
  have hb := b.isLt; have hn := n.isLt; have hc := c.isLt
  funext a; apply Fin.ext
  match a with
  | ⟨0, _⟩ => show ((b.val * 2048 + n.val) * 768 + c.val) / 1572864 = b.val; omega
  | ⟨1, _⟩ => show ((b.val * 2048 + n.val) * 768 + c.val) / 64 % 12 = c.val / 64; omega
  | ⟨2, _⟩ => show ((b.val * 2048 + n.val) * 768 + c.val) / 768 % 2048 = n.val; omega
  | ⟨3, _⟩ => show ((b.val * 2048 + n.val) * 768 + c.val) % 64 = c.val % 64; omega

/-- The reference's last stage is the attention function of the argument array. -/
theorem ref_eq (x : (⟨Cert.ReferenceIdeal.S4x2048x2304, .f32⟩ : BufTy).Contents (Elt Ideal)) :
    Cert.ReferenceIdeal.Read.val_main_v26 (F := Ideal) x = Cert.Attn.attn x := by
  funext o
  obtain ⟨b, n, c, rfl⟩ : ∃ (b : Fin 4) (n : Fin 2048) (c : Fin 768), o = ix3 b n c := ⟨o 0, o 1, o 2, eq_ix3 o⟩
  rw [val_main_v26_apply, val_main_v25_apply, idx_v25_v26_ix3, head_at, attn_ix3]

end Cert.ReferenceIdeal.RefValue

end
-- ==== Proof.lean ====
/-
  A fused multi-head self-attention kernel against its jnp reference, over the extended reals.

  Both programs compute, for each batch `b`, row `n`, head `h` and lane `d` of a packed [4, 2048, 2304] array of queries,
  keys and values, `∑ j, softmax_j ((q[n] · k[j]) / 8) * v[j, d]`, the softmax taken with the row maximum subtracted
  (`Cert.Attn.attn`, Proof/Spec.lean). The kernel tiles the work over 48 grid points, each handling two heads of one
  batch for 1024 query rows, with the scale folded to the word 1/8 and its matrix operands narrowed to bf16 — the
  identity on the extended reals; the reference reshapes and transposes the array into per-head operands, computes the
  scale as 1 / √64 (which is 1/8 exactly), takes the row maximum once more against −∞ (which changes nothing), and lays
  the heads back side by side. Neither side's equality with `attn` uses that the inputs are finite: the two are the same
  expression, index by index, up to where each entry is read from.

  The kernel's three input windows read ONE array, so its run is launched with that array's share dealt among them
  (Proof/LaunchI.lean, and its word-level sibling); the result array after the run is read block by block
  (Proof/ValueI.lean over Proof/BodyValue.lean); the reference's last stage is read in Proof/RefValue.lean.
-/
import proofs.«418524_j62156766708341_3_alg».proof.Defs
import proofs.«418524_j62156766708341_3_alg».proof.Proof.Gen.Kernel
import proofs.«418524_j62156766708341_3_alg».proof.Proof.Gen.KernelIdeal
import proofs.«418524_j62156766708341_3_alg».proof.Proof.Gen.ReferenceIdeal
import proofs.«418524_j62156766708341_3_alg».proof.Proof.Gen.ReferenceIdeal.Run
import proofs.«418524_j62156766708341_3_alg».proof.Proof.Gen.ReferenceIdeal.Read
import proofs.«418524_j62156766708341_3_alg».proof.Proof.Gen.Pre_finite_inputs
import proofs.«418524_j62156766708341_3_alg».proof.Proof.LaunchB
import proofs.«418524_j62156766708341_3_alg».proof.Proof.ValueI
import proofs.«418524_j62156766708341_3_alg».proof.Proof.RefValue
import Idealize.ShloMosaic.Adequacy
import Idealize.ShloMosaic.Init

noncomputable section

namespace Cert.Proof

open Idealize.ShloMosaic Idealize.SL.Sem

/-- The word-level kernel runs to the end and leaves its argument array as launched. -/
theorem frame_k : Cert.frame_Kernel := fun m ρ _ => Cert.Kernel.Region.frame m ρ

/-- So does the kernel read over the extended reals. -/
theorem frame_ki : Cert.frame_KernelIdeal := fun m ρ _ => Cert.KernelIdeal.Region.frame m ρ

/-- The reference, a straight line of host operations, runs to the end and leaves its argument as launched. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the argument array both programs end with their result at the attention of that array. -/
theorem algebraic : Cert.algebraic_KernelIdeal_ReferenceIdeal := by
  intro m ρ m' ρ' _ hagree
  refine ⟨fun c => Cert.Attn.attn (m ((c.tc : Thread Cert.KernelIdeal.nD Cert.KernelIdeal.τ).loc Cert.KernelIdeal.main_arg0)),
    Cert.KernelIdeal.RegionValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.ref_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
